-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x8000 : Shape := ⟨2, ![20000, 8000]⟩
abbrev S20000x64 : Shape := ⟨2, ![20000, 64]⟩
abbrev S_ : Shape := ⟨0, ![]⟩

class Facts : Prop where
  bcast_S_S20000x8000 : S_.BroadcastsInDim S20000x8000 (![] : Fin 0 → Fin S20000x8000.rank)
  reducesTo_S20000x8000_S_d0_1 : S20000x8000.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_

variable [Facts]

def fn {F : FTy → Type} [FloatOps F] (main_arg0 : FVec F S20000x8000 .f32) (main_arg1 : FVec F S20000x64 .f32) : IVec S_ 1 :=
  let main_v0 : FVec F S20000x8000 .f32 := Host.absf main_arg0
  let main_cst : FVec F S_ .f32 := constant S_ .f32 0x7F800000#32
  let main_v1 : FVec F S20000x8000 .f32 := broadcastInDim S20000x8000 ![] bcast_S_S20000x8000 main_cst
  let main_v2 : IVec S20000x8000 1 := cmpf .olt main_v0 main_v1
  let main_c : IVec S_ 1 := constantI S_ 1 1#1
  let main_v3 : IVec S_ 1 := (fun x v => Host.reduce IntOp.andi x v reducesTo_S20000x8000_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  main_v8
-- ==== Kernel.lean ====
abbrev S20000x8000 : Shape := ⟨2, ![20000, 8000]⟩
abbrev S20000x64 : Shape := ⟨2, ![20000, 64]⟩
abbrev S20000x1 : Shape := ⟨2, ![20000, 1]⟩
abbrev S1x8000 : Shape := ⟨2, ![1, 8000]⟩
abbrev S400x8000 : Shape := ⟨2, ![400, 8000]⟩
abbrev S400x1 : Shape := ⟨2, ![400, 1]⟩
abbrev S400 : Shape := ⟨1, ![400]⟩
abbrev S8000 : Shape := ⟨1, ![8000]⟩
abbrev S_ : Shape := ⟨0, ![]⟩
abbrev S8000x64 : Shape := ⟨2, ![8000, 64]⟩
abbrev S400x64 : Shape := ⟨2, ![400, 64]⟩
abbrev S8000x1 : Shape := ⟨2, ![8000, 1]⟩

abbrev nBuf : Space → Nat
  | .hbm => 26
  | .vmem => 15
  | .smem => 0
  | _ => 0

abbrev bufTy : (tb : Table) → Fin (tcTables nBuf tb) → BufTy
  | .hbm, ⟨0, _⟩ => ⟨S20000x8000, .f32⟩
  | .hbm, ⟨1, _⟩ => ⟨S20000x64, .f32⟩
  | .hbm, ⟨2, _⟩ => ⟨S20000x1, .f32⟩
  | .hbm, ⟨3, _⟩ => ⟨S1x8000, .f32⟩
  | .hbm, ⟨4, _⟩ => ⟨S_, .f32⟩
  | .hbm, ⟨5, _⟩ => ⟨S20000x1, .f32⟩
  | .hbm, ⟨6, _⟩ => ⟨S20000x1, .f32⟩
  | .hbm, ⟨7, _⟩ => ⟨S20000x1, .f32⟩
  | .hbm, ⟨8, _⟩ => ⟨S_, .f32⟩
  | .hbm, ⟨9, _⟩ => ⟨S20000x1, .f32⟩
  | .hbm, ⟨10, _⟩ => ⟨S20000x1, .f32⟩
  | .hbm, ⟨11, _⟩ => ⟨S_, .f32⟩
  | .hbm, ⟨12, _⟩ => ⟨S1x8000, .f32⟩
  | .hbm, ⟨13, _⟩ => ⟨S1x8000, .f32⟩
  | .hbm, ⟨14, _⟩ => ⟨S_, .f32⟩
  | .hbm, ⟨15, _⟩ => ⟨S1x8000, .f32⟩
  | .hbm, ⟨16, _⟩ => ⟨S1x8000, .f32⟩
  | .hbm, ⟨17, _⟩ => ⟨S20000x64, .f32⟩
  | .hbm, ⟨18, _⟩ => ⟨S20000x64, .f32⟩
  | .hbm, ⟨19, _⟩ => ⟨S8000x64, .f32⟩
  | .hbm, ⟨20, _⟩ => ⟨S8000x1, .f32⟩
  | .hbm, ⟨21, _⟩ => ⟨S8000x64, .f32⟩
  | .hbm, ⟨22, _⟩ => ⟨S8000x64, .f32⟩
  | .hbm, ⟨23, _⟩ => ⟨S20000x64, .f32⟩
  | .hbm, ⟨24, _⟩ => ⟨S20000x64, .f32⟩
  | .hbm, ⟨25, _⟩ => ⟨S20000x64, .f32⟩
  | .local _ .vmem, ⟨0, _⟩ => ⟨S400x8000, .f32⟩
  | .local _ .vmem, ⟨1, _⟩ => ⟨S400x8000, .f32⟩
  | .local _ .vmem, ⟨2, _⟩ => ⟨S400x1, .f32⟩
  | .local _ .vmem, ⟨3, _⟩ => ⟨S400x1, .f32⟩
  | .local _ .vmem, ⟨4, _⟩ => ⟨S1x8000, .f32⟩
  | .local _ .vmem, ⟨5, _⟩ => ⟨S400x8000, .f32⟩
  | .local _ .vmem, ⟨6, _⟩ => ⟨S400x8000, .f32⟩
  | .local _ .vmem, ⟨7, _⟩ => ⟨S400x64, .f32⟩
  | .local _ .vmem, ⟨8, _⟩ => ⟨S400x64, .f32⟩
  | .local _ .vmem, ⟨9, _⟩ => ⟨S8000x64, .f32⟩
  | .local _ .vmem, ⟨10, _⟩ => ⟨S400x8000, .f32⟩
  | .local _ .vmem, ⟨11, _⟩ => ⟨S400x8000, .f32⟩
  | .local _ .vmem, ⟨12, _⟩ => ⟨S8000x64, .f32⟩
  | .local _ .vmem, ⟨13, _⟩ => ⟨S400x64, .f32⟩
  | .local _ .vmem, ⟨14, _⟩ => ⟨S400x64, .f32⟩
  | _, _ => ⟨S20000x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32_5 : BitVec 32 := 0#32
  let v9 : BitVec 1 := Scalar.cmpi .sgt arg0 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def k1_cond1 (i : grid1.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x8000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x8000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S400x8000_S400x8000_0_0 : ∀ a, (![0, 0] : Fin 2 → Nat) a + S400x8000.size a ≤ S400x8000.size a
  h_S400x8000 : 0 < S400x8000.numel
  reduces_S400x8000_S400 : S400x8000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  reduces_S400x8000_S8000 : S400x8000.Reduces [0] S8000
  shapeCasts_S8000_S1x8000 : S8000.ShapeCasts S1x8000
  inb_S1x8000_S1x8000_0_0 : ∀ a, (![0, 0] : Fin 2 → Nat) a + S1x8000.size a ≤ S1x8000.size a
  h_S1x8000 : 0 < S1x8000.numel
  shapeCasts_S1x8000_S1x8000 : S1x8000.ShapeCasts S1x8000
  bcast_S_S20000x1 : S_.BroadcastsInDim S20000x1 (![] : Fin 0 → Fin S20000x1.rank)
  bcast_S_S1x8000 : S_.BroadcastsInDim S1x8000 (![] : Fin 0 → Fin S1x8000.rank)
  bcast_S20000x1_S20000x64_0_1 : S20000x1.BroadcastsInDim S20000x64 (![0, 1] : Fin 2 → Fin S20000x64.rank)
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  shapeCasts_S1x8000_S8000x1 : S1x8000.ShapeCasts S8000x1
  bcast_S8000x1_S8000x64_0_1 : S8000x1.BroadcastsInDim S8000x64 (![0, 1] : Fin 2 → Fin S8000x64.rank)
  dot_S400x8000_S400x64_S8000x64_0_0_1_1_n_n_wf : DotDims.WF S400x8000 S400x64 S8000x64 [0] [0] [1] [1] [] []
  dot_S400x8000_S8000x64_S400x64_1_0_0_1_n_n_wf : DotDims.WF S400x8000 S8000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x8000.size a ≤ S20000x8000.size a
  hwx0_0 : ∀ i : grid0.Coords, EltTy.bits .f32 = 32 ∨ (Rect.block (s := S20000x8000) S400x8000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S20000x1.size a
  hwx0_1 : ∀ i : grid0.Coords, EltTy.bits .f32 = 32 ∨ (Rect.block (s := S20000x1) S400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8000.size a ≤ S1x8000.size a
  hwx0_2 : ∀ i : grid0.Coords, EltTy.bits .f32 = 32 ∨ (Rect.block (s := S1x8000) S1x8000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x8000.size a ≤ S20000x8000.size a
  hwx1_0 : ∀ i : grid1.Coords, EltTy.bits .f32 = 32 ∨ (Rect.block (s := S20000x8000) S400x8000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x64.size a ≤ S20000x64.size a
  hwx1_1 : ∀ i : grid1.Coords, EltTy.bits .f32 = 32 ∨ (Rect.block (s := S20000x64) S400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S8000x64.size a
  hwx1_2 : ∀ i : grid1.Coords, EltTy.bits .f32 = 32 ∨ (Rect.block (s := S8000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x8000.size a ≤ S20000x8000.size a
  hwx2_0 : ∀ i : grid2.Coords, EltTy.bits .f32 = 32 ∨ (Rect.block (s := S20000x8000) S400x8000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S8000x64.size a
  hwx2_1 : ∀ i : grid2.Coords, EltTy.bits .f32 = 32 ∨ (Rect.block (s := S8000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S20000x64.size a
  hwx2_2 : ∀ i : grid2.Coords, EltTy.bits .f32 = 32 ∨ (Rect.block (s := S20000x64) S400x64.size (cc2_transform_2 i) (hinb2_2 i)).WholeWords (EltTy.packing .f32)

variable [Facts₀]

def dot_S400x8000_S400x64_S8000x64_0_0_1_1_n_n : DotDims S400x8000 S400x64 S8000x64 where
  lhsContracting := [0]
  rhsContracting := [0]
  lhsNonContracting := [1]
  rhsNonContracting := [1]
  lhsBatch := []
  rhsBatch := []
  wf := dot_S400x8000_S400x64_S8000x64_0_0_1_1_n_n_wf
def dot_S400x8000_S8000x64_S400x64_1_0_0_1_n_n : DotDims S400x8000 S8000x64 S400x64 where
  lhsContracting := [1]
  rhsContracting := [0]
  lhsNonContracting := [0]
  rhsNonContracting := [1]
  lhsBatch := []
  rhsBatch := []
  wf := dot_S400x8000_S8000x64_S400x64_1_0_0_1_n_n_wf

abbrev win0_0 : Pipeline.Window sig grid0 :=
  Pipeline.Window.ofSpec (Memref.whole main_arg0) S400x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S400x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S400x8000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8000x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

abbrev win2_0 : Pipeline.Window sig grid2 :=
  Pipeline.Window.ofSpec (Memref.whole main_arg0) S400x8000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S8000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x8000 : Shape := ⟨2, ![20000, 8000]⟩
abbrev S20000x64 : Shape := ⟨2, ![20000, 64]⟩
abbrev S_ : Shape := ⟨0, ![]⟩
abbrev S20000 : Shape := ⟨1, ![20000]⟩
abbrev S8000 : Shape := ⟨1, ![8000]⟩
abbrev S20000x1 : Shape := ⟨2, ![20000, 1]⟩
abbrev S8000x20000 : Shape := ⟨2, ![8000, 20000]⟩
abbrev S8000x64 : Shape := ⟨2, ![8000, 64]⟩
abbrev S8000x1 : Shape := ⟨2, ![8000, 1]⟩

abbrev nBuf : Space → Nat
  | .hbm => 31
  | .vmem => 0
  | .smem => 0
  | _ => 0

abbrev bufTy : (tb : Table) → Fin (tcTables nBuf tb) → BufTy
  | .hbm, ⟨0, _⟩ => ⟨S20000x8000, .f32⟩
  | .hbm, ⟨1, _⟩ => ⟨S20000x64, .f32⟩
  | .hbm, ⟨2, _⟩ => ⟨S_, .f32⟩
  | .hbm, ⟨3, _⟩ => ⟨S20000, .f32⟩
  | .hbm, ⟨4, _⟩ => ⟨S_, .f32⟩
  | .hbm, ⟨5, _⟩ => ⟨S8000, .f32⟩
  | .hbm, ⟨6, _⟩ => ⟨S_, .f32⟩
  | .hbm, ⟨7, _⟩ => ⟨S20000, .f32⟩
  | .hbm, ⟨8, _⟩ => ⟨S20000, .f32⟩
  | .hbm, ⟨9, _⟩ => ⟨S20000, .f32⟩
  | .hbm, ⟨10, _⟩ => ⟨S_, .f32⟩
  | .hbm, ⟨11, _⟩ => ⟨S20000, .f32⟩
  | .hbm, ⟨12, _⟩ => ⟨S20000, .f32⟩
  | .hbm, ⟨13, _⟩ => ⟨S_, .f32⟩
  | .hbm, ⟨14, _⟩ => ⟨S8000, .f32⟩
  | .hbm, ⟨15, _⟩ => ⟨S8000, .f32⟩
  | .hbm, ⟨16, _⟩ => ⟨S_, .f32⟩
  | .hbm, ⟨17, _⟩ => ⟨S8000, .f32⟩
  | .hbm, ⟨18, _⟩ => ⟨S8000, .f32⟩
  | .hbm, ⟨19, _⟩ => ⟨S20000x1, .f32⟩
  | .hbm, ⟨20, _⟩ => ⟨S20000x64, .f32⟩
  | .hbm, ⟨21, _⟩ => ⟨S20000x64, .f32⟩
  | .hbm, ⟨22, _⟩ => ⟨S8000x20000, .f32⟩
  | .hbm, ⟨23, _⟩ => ⟨S8000x64, .f32⟩
  | .hbm, ⟨24, _⟩ => ⟨S8000x1, .f32⟩
  | .hbm, ⟨25, _⟩ => ⟨S8000x64, .f32⟩
  | .hbm, ⟨26, _⟩ => ⟨S8000x64, .f32⟩
  | .hbm, ⟨27, _⟩ => ⟨S20000x64, .f32⟩
  | .hbm, ⟨28, _⟩ => ⟨S20000x1, .f32⟩
  | .hbm, ⟨29, _⟩ => ⟨S20000x64, .f32⟩
  | .hbm, ⟨30, _⟩ => ⟨S20000x64, .f32⟩
  | _, _ => ⟨S20000x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S20000x8000_S20000_d1 : S20000x8000.ReducesTo [1] S20000
  h_S_ : 0 < S_.numel
  reducesTo_S20000x8000_S8000_d0 : S20000x8000.ReducesTo [0] S8000
  bcast_S_S20000 : S_.BroadcastsInDim S20000 (![] : Fin 0 → Fin S20000.rank)
  bcast_S_S8000 : S_.BroadcastsInDim S8000 (![] : Fin 0 → Fin S8000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  transposes_S20000x8000_S8000x20000_1_0 : S20000x8000.Transposes [1, 0] S8000x20000
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  dot_S8000x20000_S20000x64_S8000x64_1_0_0_1_n_n_wf : DotDims.WF S8000x20000 S20000x64 S8000x64 [1] [0] [0] [1] [] []
  dot_S20000x8000_S8000x64_S20000x64_1_0_0_1_n_n_wf : DotDims.WF S20000x8000 S8000x64 S20000x64 [1] [0] [0] [1] [] []

variable [Facts₀]

def dot_S8000x20000_S20000x64_S8000x64_1_0_0_1_n_n : DotDims S8000x20000 S20000x64 S8000x64 where
  lhsContracting := [1]
  rhsContracting := [0]
  lhsNonContracting := [0]
  rhsNonContracting := [1]
  lhsBatch := []
  rhsBatch := []
  wf := dot_S8000x20000_S20000x64_S8000x64_1_0_0_1_n_n_wf
def dot_S20000x8000_S8000x64_S20000x64_1_0_0_1_n_n : DotDims S20000x8000 S8000x64 S20000x64 where
  lhsContracting := [1]
  rhsContracting := [0]
  lhsNonContracting := [0]
  rhsNonContracting := [1]
  lhsBatch := []
  rhsBatch := []
  wf := dot_S20000x8000_S8000x64_S20000x64_1_0_0_1_n_n_wf

class Facts : Prop extends Facts₀ where

variable [Facts]
-- ==== Proof.K.Reg0.lean ====
/-
  Region 0 of the program: the degree kernel on a grid of 50 row blocks of the incidence array.
  At a point the body reads the 400 x 8000 block, stores its row sums (400 x 1) into the first output
  window, and keeps the column sums in the second output window: at the first point the block's column
  sums, at every later point what the point before left plus the block's column sums. Stated at a
  parameter `V`, the buffers' contents when the region is entered, and for any float instance.
-/
import proofs.«132042_j80255758893061_1_alg».proof.Proof.Gen.Kernel.Launch
import proofs.«132042_j80255758893061_1_alg».proof.Proof.Gen.Kernel.Skeleton
import proofs.«132042_j80255758893061_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole staging buffer -/

abbrev rH0 : Rect S400x8000 := Rect.unit (s := S400x8000) ![0, 0] S400x8000.size inb_S400x8000_S400x8000_0_0
abbrev rDv : Rect S400x1 := Rect.unit (s := S400x1) ![0, 0] S400x1.size inb_S400x1_S400x1_0_0
abbrev rDe : Rect S1x8000 := Rect.unit (s := S1x8000) ![0, 0] S1x8000.size inb_S1x8000_S1x8000_0_0

/-! ## What the body leaves in the output windows' buffers -/

/-- The row sums of the block. -/
def dvOut (x0 : Vec F S400x8000 .f32) : Vec F S400x1 .f32 :=
  View.canon [⟨rDv, k0_pay1 (View.ld x0 rH0)⟩]
/-- The column sums of the block: what the first point leaves. -/
def deFirst (x0 : Vec F S400x8000 .f32) : Vec F S1x8000 .f32 :=
  View.canon [⟨rDe, k0_pay2 (View.ld x0 rH0)⟩]
/-- What a later point leaves over the running column sums `acc`. -/
def deNext (x0 : Vec F S400x8000 .f32) (acc : Vec F S1x8000 .f32) : Vec F S1x8000 .f32 :=
  View.canon [⟨rDe, k0_pay3 (View.ld x0 rH0) (View.ld acc rDe)⟩]

theorem coverDv (p0 : Vec F S400x1 .f32) (y : S400x1.Idx) :
    ∃ pc ∈ ([⟨rDv, p0⟩] : List (View.Piece (Elt F) S400x1 .f32)), y ∈ pc.1.set :=
  View.cover_of_tiled [⟨rDv, p0⟩] S400x1.size (by rfl) y
theorem coverDe (p0 : Vec F S1x8000 .f32) (y : S1x8000.Idx) :
    ∃ pc ∈ ([⟨rDe, p0⟩] : List (View.Piece (Elt F) S1x8000 .f32)), y ∈ pc.1.set :=
  View.cover_of_tiled [⟨rDe, p0⟩] S1x8000.size (by rfl) y

/-! ## The two branch conditions over the grid -/

theorem hcond0_1 : ∀ t : Fin cfg0.N, k0_cond1 (grid0.coords t) = 1#1 ↔ t.val = 0 :=
  (by decide +kernel : ∀ t : Fin grid0.N, k0_cond1 (grid0.coords t) = 1#1 ↔ t.val = 0)
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two stores into the column-sum window happens at every point. -/
theorem hlive0_2 : ∀ i : grid0.Coords, cfg0.idle 2 i = false :=
  (by decide +kernel : ∀ i : grid0.Coords, idle0 2 i = false)

/-! ## The body's triple, first point and later points -/

set_option maxHeartbeats 1000000 in
theorem sound_kernel0_A (c : Dev nD) (E : Set ℕ) (i : grid0.Coords) (arg1 : Memref sig .tc .vmem S400x8000 .f32) (harg1 : arg1.IsWhole)
    (arg2 : Memref sig .tc .vmem S400x1 .f32) (harg2 : arg2.IsWhole) (arg3 : Memref sig .tc .vmem S1x8000 .f32) (harg3 : arg3.IsWhole)
    (hc1 : k0_cond1 i = 1#1) (hc2 : ¬ k0_cond2 i = 1#1)
    (x0 : Vec F S400x8000 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (dvOut x0) ∗ owns (c : Thread nD τ) arg3 fullShare (deFirst x0)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverDv _)
  iexists _; isplitr
  swap; · iexact H2
  ipureintro
  exact View.read_writes_eq_canon _ _ _ (coverDe _)

set_option maxHeartbeats 1000000 in
theorem sound_kernel0_B (c : Dev nD) (E : Set ℕ) (i : grid0.Coords) (arg1 : Memref sig .tc .vmem S400x8000 .f32) (harg1 : arg1.IsWhole)
    (arg2 : Memref sig .tc .vmem S400x1 .f32) (harg2 : arg2.IsWhole) (arg3 : Memref sig .tc .vmem S1x8000 .f32) (harg3 : arg3.IsWhole)
    (hc1 : ¬ k0_cond1 i = 1#1) (hc2 : k0_cond2 i = 1#1)
    (x0 : Vec F S400x8000 .f32) (xo : Vec F S1x8000 .f32) (K : PUnit → sProp 𝕄) :
    iprop(owns (c : Thread nD τ) arg1 fullShare x0 ∗ (∃ d, owns (c : Thread nD τ) arg2 fullShare d) ∗ owns (c : Thread nD τ) arg3 fullShare xo
        ∗ (iprop(owns (c : Thread nD τ) arg1 fullShare x0 ∗ owns (c : Thread nD τ) arg2 fullShare (dvOut x0) ∗ owns (c : Thread nD τ) arg3 fullShare (deNext x0 xo)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverDv _)
  iexists _; isplitr
  swap; · iexact H2
  ipureintro
  exact View.read_writes_eq_canon _ _ _ (coverDe _)

/-! ## The running column sums, point by point -/

/-- What the column-sum window's buffer holds after the body at position `n`. -/
def deAt (c : Dev nD) : (n : ℕ) → n < cfg0.N → Vec F S1x8000 .f32
  | 0, hn => deFirst (iblk0 V c 0 ⟨0, hn⟩)
  | n + 1, hn => deNext (iblk0 V c 0 ⟨n + 1, hn⟩) (deAt c n (Nat.lt_of_succ_lt hn))

theorem deAt_zero (c : Dev nD) (t : Fin cfg0.N) (h0 : t.val = 0) :
    deAt V c t.val t.isLt = deFirst (iblk0 V c 0 t) := by
  obtain ⟨n, hn⟩ := t
  cases n with
  | zero => rfl
  | succ n => exact absurd h0 (Nat.succ_ne_zero n)

theorem deAt_pos (c : Dev nD) (t : Fin cfg0.N) (h0 : t.val ≠ 0) :
    deAt V c t.val t.isLt = deNext (iblk0 V c 0 t) (deAt V c (t.val - 1) (Nat.lt_of_le_of_lt (Nat.sub_le _ _) t.isLt)) := by
  obtain ⟨n, hn⟩ := t
  cases n with
  | zero => exact absurd rfl h0
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dvOut (iblk0 V c 0 t)
    | ⟨2, _⟩ => deAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = dvOut (iblk0 V c 0 t) := by dsimp only [dat0]
theorem after0_2 (c : Dev nD) (t : Fin cfg0.N) : (dat0 V c).after 2 t = deAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the column-sum window's buffer holds what the point before left: it is written back at the
    last point only. -/
theorem before0_2_pos (c : Dev nD) (t : Fin cfg0.N) (h0 : t.val ≠ 0) (d) :
    (dat0 V c).before 2 t d = deAt V c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    hlive0_2 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [deAt_zero V c t h0]
    iintro ⟨HΦ, Ho, ⟨%d0, H0⟩, ⟨%d1, H1⟩, ⟨%d2, H2⟩⟩
    iapply (sound_kernel0_A c Set.univ (grid0.coords t) _ _ _ _ _ _ ((hcond0_1 t).mpr h0) (fun h => ((hcond0_2 t).mp h) h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [deAt_pos V c t h0]
    simp only [before0_2_pos V c t h0]
    iintro ⟨HΦ, Ho, ⟨%d0, H0⟩, ⟨%d1, H1⟩, ⟨%d2, H2⟩⟩
    iapply (sound_kernel0_B c Set.univ (grid0.coords t) _ _ _ _ _ _ (fun h => h0 ((hcond0_1 t).mp h)) ((hcond0_2 t).mpr h0) (iblk0 V c 0 t) _ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the pipeline's rule, at every point. -/
theorem body_obligation0 (c : Dev nD) : BodyObligation (dat0 (F := F) V c) (defs₀ (F := F)) Variants.none () Set.univ := fun t => by
  rw [bigSep_W0, bigSep_W0]
  rw [show cfg0.idle 2 (cfg0.grid.coords t) = false from hlive0_2 _]
  exact sound_body0 V c t

end Cert.Kernel.Fr

end
-- ==== Proof.K.Reg1.lean ====
/-
  Region 1 of the program: the transposed product on a grid of 50 row blocks. At a point the body reads the
  400 x 8000 block of the incidence array and the 400 x 64 block of the scaled features and contracts them over
  the 400 rows into an 8000 x 64 product; the output window keeps the running sum over the blocks: at the first
  point the block's product, at every later point what the point before left plus the block's product. Stated at
  a parameter `V`, the buffers' contents when the region is entered, and for any float instance.
-/
import proofs.«132042_j80255758893061_1_alg».proof.Proof.Gen.Kernel.Launch
import proofs.«132042_j80255758893061_1_alg».proof.Proof.Gen.Kernel.Skeleton
import proofs.«132042_j80255758893061_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole staging buffer -/

abbrev rH1 : Rect S400x8000 := Rect.unit (s := S400x8000) ![0, 0] S400x8000.size inb_S400x8000_S400x8000_0_0
abbrev rX1 : Rect S400x64 := Rect.unit (s := S400x64) ![0, 0] S400x64.size inb_S400x64_S400x64_0_0
abbrev rP1 : Rect S8000x64 := Rect.unit (s := S8000x64) ![0, 0] S8000x64.size inb_S8000x64_S8000x64_0_0

/-! ## What the body leaves in the output window's buffer -/

/-- The block's product: what the first point leaves. -/
def accFirst (x0 : Vec F S400x8000 .f32) (x1 : Vec F S400x64 .f32) : Vec F S8000x64 .f32 :=
  View.canon [⟨rP1, k1_pay1 (View.ld x0 rH1) (View.ld x1 rX1)⟩]
/-- What a later point leaves over the running sum `acc`. -/
def accNext (x0 : Vec F S400x8000 .f32) (x1 : Vec F S400x64 .f32) (acc : Vec F S8000x64 .f32) : Vec F S8000x64 .f32 :=
  View.canon [⟨rP1, k1_pay2 (View.ld x0 rH1) (View.ld x1 rX1) (View.ld acc rP1)⟩]

theorem coverP1 (p0 : Vec F S8000x64 .f32) (y : S8000x64.Idx) :
    ∃ pc ∈ ([⟨rP1, p0⟩] : List (View.Piece (Elt F) S8000x64 .f32)), y ∈ pc.1.set :=
  View.cover_of_tiled [⟨rP1, p0⟩] S8000x64.size (by rfl) y

/-! ## The two branch conditions over the grid -/

theorem hcond1_1 : ∀ t : Fin cfg1.N, k1_cond1 (grid1.coords t) = 1#1 ↔ t.val = 0 :=
  (by decide +kernel : ∀ t : Fin grid1.N, k1_cond1 (grid1.coords t) = 1#1 ↔ t.val = 0)
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)
/-- One of the two stores into the output window happens at every point. -/
theorem hlive1_2 : ∀ i : grid1.Coords, cfg1.idle 2 i = false :=
  (by decide +kernel : ∀ i : grid1.Coords, idle1 2 i = false)

/-! ## The body's triple, first point and later points -/

set_option maxHeartbeats 1000000 in
theorem sound_kernel1_A (c : Dev nD) (E : Set ℕ) (i : grid1.Coords) (arg1 : Memref sig .tc .vmem S400x8000 .f32) (harg1 : arg1.IsWhole)
    (arg2 : Memref sig .tc .vmem S400x64 .f32) (harg2 : arg2.IsWhole) (arg3 : Memref sig .tc .vmem S8000x64 .f32) (harg3 : arg3.IsWhole)
    (hc1 : k1_cond1 i = 1#1) (hc2 : ¬ k1_cond2 i = 1#1)
    (x0 : Vec F S400x8000 .f32) (x1 : Vec F S400x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (accFirst x0 x1)) -∗ K ⟨⟩))
      ⊢ wp frame (wpE (defs₀ (F := F)) Variants.none c none) E (cc1__hT_x_kernel i arg1 harg1 arg2 harg2 arg3 harg3) K := by
  simp only [cc1__hT_x_kernel_eq_skeleton]; unfold cc1__hT_x_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP1 _)

set_option maxHeartbeats 1000000 in
theorem sound_kernel1_B (c : Dev nD) (E : Set ℕ) (i : grid1.Coords) (arg1 : Memref sig .tc .vmem S400x8000 .f32) (harg1 : arg1.IsWhole)
    (arg2 : Memref sig .tc .vmem S400x64 .f32) (harg2 : arg2.IsWhole) (arg3 : Memref sig .tc .vmem S8000x64 .f32) (harg3 : arg3.IsWhole)
    (hc1 : ¬ k1_cond1 i = 1#1) (hc2 : k1_cond2 i = 1#1)
    (x0 : Vec F S400x8000 .f32) (x1 : Vec F S400x64 .f32) (xo : Vec F S8000x64 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (accNext x0 x1 xo)) -∗ K ⟨⟩))
      ⊢ wp frame (wpE (defs₀ (F := F)) Variants.none c none) E (cc1__hT_x_kernel i arg1 harg1 arg2 harg2 arg3 harg3) K := by
  simp only [cc1__hT_x_kernel_eq_skeleton]; unfold cc1__hT_x_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP1 _)

/-! ## The running sum, point by point -/

/-- What the output window's buffer holds after the body at position `n`. -/
def accAt1 (c : Dev nD) : (n : ℕ) → n < cfg1.N → Vec F S8000x64 .f32
  | 0, hn => accFirst (iblk1 V c 0 ⟨0, hn⟩) (iblk1 V c 1 ⟨0, hn⟩)
  | n + 1, hn => accNext (iblk1 V c 0 ⟨n + 1, hn⟩) (iblk1 V c 1 ⟨n + 1, hn⟩) (accAt1 c n (Nat.lt_of_succ_lt hn))

theorem accAt1_zero (c : Dev nD) (t : Fin cfg1.N) (h0 : t.val = 0) :
    accAt1 V c t.val t.isLt = accFirst (iblk1 V c 0 t) (iblk1 V c 1 t) := by
  obtain ⟨n, hn⟩ := t
  cases n with
  | zero => rfl
  | succ n => exact absurd h0 (Nat.succ_ne_zero n)

theorem accAt1_pos (c : Dev nD) (t : Fin cfg1.N) (h0 : t.val ≠ 0) :
    accAt1 V c t.val t.isLt = accNext (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- After the first point the output window's buffer holds what the point before left: it is written back at the
    last point only. -/
theorem before1_2_pos (c : Dev nD) (t : Fin cfg1.N) (h0 : t.val ≠ 0) (d) :
    (dat1 V c).before 2 t d = accAt1 V c (t.val - 1) (Nat.lt_of_le_of_lt (Nat.sub_le _ _) t.isLt) := by
  have hN : t.val < 50 := lt_of_lt_of_eq t.isLt (show cfg1.N = 50 from N_1)
  rw [Dat.before_out_kept _ 2 rfl t h0 (Bool.eq_false_iff.mpr fun h => by have := (flush1_2 _).mp h; dsimp only at this; omega)
    hlive1_2 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [accAt1_zero V c t h0]
    iintro ⟨HΦ, Ho, ⟨%d0, H0⟩, ⟨%d1, H1⟩, ⟨%d2, H2⟩⟩
    iapply (sound_kernel1_A c Set.univ (grid1.coords t) _ _ _ _ _ _ ((hcond1_1 t).mpr h0) (fun h => ((hcond1_2 t).mp h) h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt1_pos V c t h0]
    simp only [before1_2_pos V c t h0]
    iintro ⟨HΦ, Ho, ⟨%d0, H0⟩, ⟨%d1, H1⟩, ⟨%d2, H2⟩⟩
    iapply (sound_kernel1_B c Set.univ (grid1.coords t) _ _ _ _ _ _ (fun h => h0 ((hcond1_1 t).mp h)) ((hcond1_2 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the pipeline's rule, at every point. -/
theorem body_obligation1 (c : Dev nD) : BodyObligation (dat1 (F := F) V c) (defs₀ (F := F)) Variants.none () Set.univ := fun t => by
  rw [bigSep_W1, bigSep_W1]
  rw [show cfg1.idle 2 (cfg1.grid.coords t) = false from hlive1_2 _]
  exact sound_body1 V c t

end Cert.Kernel.Fr

end
-- ==== Proof.K.Reg2.lean ====
/-
  Region 2 of the program: the product of a 400 x 8000 row block of the incidence array with the whole
  8000 x 64 operand, on a grid of 50 row blocks; the body stores the 400 x 64 product into the output
  window at every point. Stated at a parameter `V`, the buffers' contents when the region is entered, and
  for any float instance.
-/
import proofs.«132042_j80255758893061_1_alg».proof.Proof.Gen.Kernel.Launch
import proofs.«132042_j80255758893061_1_alg».proof.Proof.Gen.Kernel.Skeleton
import proofs.«132042_j80255758893061_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole staging buffer -/

abbrev rH2 : Rect S400x8000 := Rect.unit (s := S400x8000) ![0, 0] S400x8000.size inb_S400x8000_S400x8000_0_0
abbrev rB2 : Rect S8000x64 := Rect.unit (s := S8000x64) ![0, 0] S8000x64.size inb_S8000x64_S8000x64_0_0
abbrev rO2 : Rect S400x64 := Rect.unit (s := S400x64) ![0, 0] S400x64.size inb_S400x64_S400x64_0_0

/-- The block product the body leaves in the output window's buffer. -/
def prodOut (x0 : Vec F S400x8000 .f32) (x1 : Vec F S8000x64 .f32) : Vec F S400x64 .f32 :=
  View.canon [⟨rO2, k2_pay1 (View.ld x0 rH2) (View.ld x1 rB2)⟩]

theorem coverO2 (p0 : Vec F S400x64 .f32) (y : S400x64.Idx) :
    ∃ pc ∈ ([⟨rO2, p0⟩] : List (View.Piece (Elt F) S400x64 .f32)), y ∈ pc.1.set :=
  View.cover_of_tiled [⟨rO2, p0⟩] S400x64.size (by rfl) y

/-! ## The body's triple -/

set_option maxHeartbeats 1000000 in
theorem sound_kernel2 (c : Dev nD) (E : Set ℕ) (i : grid2.Coords) (arg1 : Memref sig .tc .vmem S400x8000 .f32) (harg1 : arg1.IsWhole)
    (arg2 : Memref sig .tc .vmem S8000x64 .f32) (harg2 : arg2.IsWhole) (arg3 : Memref sig .tc .vmem S400x64 .f32) (harg3 : arg3.IsWhole)
    (x0 : Vec F S400x8000 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodOut x0 x1)) -∗ K ⟨⟩))
      ⊢ wp frame (wpE (defs₀ (F := F)) Variants.none c none) E (cc2__h_x_kernel i arg1 harg1 arg2 harg2 arg3 harg3) K := by
  simp only [cc2__h_x_kernel_eq_skeleton]; unfold cc2__h_x_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO2 _)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => prodOut (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = prodOut (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
/-
  The buffers' contents at each boundary between the program's items, as a fold from the launch memory: a kernel
  region leaves its arrays at what its write-backs leave and every other buffer as entered; a stretch of host
  operations leaves what the operations compute. The argument arrays come through unchanged.
-/
import proofs.«132042_j80255758893061_1_alg».proof.Proof.K.Reg0
import proofs.«132042_j80255758893061_1_alg».proof.Proof.K.Reg1
import proofs.«132042_j80255758893061_1_alg».proof.Proof.K.Reg2
import proofs.«132042_j80255758893061_1_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch: region 0's entry. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations `hostOps1`. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At region 1's exit: its arrays at what the write-backs leave, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the host operations `hostOps2`. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- At region 2's exit: its arrays at what the write-backs leave, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the core's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-- After the host operations `hostOps3`. -/
abbrev W6 : Dev nD → Valuation τ sig (Elt F) := fun c => StableHlo.after hostOps3 (W5 m ρ c)
abbrev E6 : (c : Dev nD) → (b : Ref sig .tc) → Buf (Elt F) ((c : Thread nD τ).loc b) := fun c b => W6 m ρ c b

/-! ## The arguments come through unchanged -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := (W5_arr m ρ c 0).trans (((dat2 (E4 m ρ) c).arrAt_in 0 rfl _).trans (A_eq2 (E4 m ρ) c 0))
    _ = W3 m ρ c (Proc.devRef .tc main_arg0) := StableHlo.after_of_writes_sub hostOps2 _ hostOps2_writes (by decide)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

end Cert.Kernel.Fr

end
-- ==== Proof.K.Run.lean ====
/-
  The program's run: @main as its six items in order (region 0, host operations, region 1, host operations, region 2,
  host operations), each region entered with every unscoped buffer at the boundary's contents; every weakly fair
  execution terminates with every unscoped buffer at the last boundary's contents.
-/
import proofs.«132042_j80255758893061_1_alg».proof.Proof.K.Fold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 over the thread state: entered with every unscoped buffer at `W0`, left with them at `W1`. The
    region's arrays are split out of the unscoped buffers at entry and put back, at what the write-backs leave, at exit;
    the generator register passes through the region's invariant; nothing is owed. -/
def regS0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. The
    region's arrays are split out of the unscoped buffers at entry and put back, at what the write-backs leave, at exit;
    the generator register passes through the region's invariant; nothing is owed. -/
def regS1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. The
    region's arrays are split out of the unscoped buffers at entry and put back, at what the write-backs leave, at exit;
    the generator register passes through the region's invariant; nothing is owed. -/
def regS2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segsAll : List (Pipeline.Seg (pcfgs (F := F)) adm (pdats m ρ) () defs₀ 𝒱₀ L lv) :=
  [ .region (regS0 m ρ),
    .host (hseg hostOps1 hostOps1_sub hostOps1_fresh (W1 m ρ)),
    .region (regS1 m ρ),
    .host (hseg hostOps2 hostOps2_sub hostOps2_fresh (W3 m ρ)),
    .region (regS2 m ρ),
    .host (hseg hostOps3 hostOps3_sub hostOps3_fresh (W5 m ρ)) ]
theorem main_run (c : Dev nD) : main (F := F) c = Pipeline.Seg.run (segsAll m ρ) := (main_chain c).trans (by chain_rfl)

set_option backward.isDefEq.respectTransparency.types false in
/-- THE RUN: from any memory with zero counters every weakly fair execution of @main terminates, nothing faulting, and
    every final state has every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m ρ c),
     (h c _ (mem_uc main_arg1 (by decide))).trans (W6_main_arg1 m ρ c)⟩) (run_all m ρ)

end Cert.Kernel.Fr

end
-- ==== Proof.KI.Reg0.lean ====
/-
  Region 0 of the program: the degree kernel on a grid of 50 row blocks of the incidence array.
  At a point the body reads the 400 x 8000 block, stores its row sums (400 x 1) into the first output
  window, and keeps the column sums in the second output window: at the first point the block's column
  sums, at every later point what the point before left plus the block's column sums. Stated at a
  parameter `V`, the buffers' contents when the region is entered, and for any float instance.
-/
import proofs.«132042_j80255758893061_1_alg».proof.Proof.Gen.KernelIdeal.Launch
import proofs.«132042_j80255758893061_1_alg».proof.Proof.Gen.KernelIdeal.Skeleton
import proofs.«132042_j80255758893061_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole staging buffer -/

abbrev rH0 : Rect S400x8000 := Rect.unit (s := S400x8000) ![0, 0] S400x8000.size inb_S400x8000_S400x8000_0_0
abbrev rDv : Rect S400x1 := Rect.unit (s := S400x1) ![0, 0] S400x1.size inb_S400x1_S400x1_0_0
abbrev rDe : Rect S1x8000 := Rect.unit (s := S1x8000) ![0, 0] S1x8000.size inb_S1x8000_S1x8000_0_0

/-! ## What the body leaves in the output windows' buffers -/

/-- The row sums of the block. -/
def dvOut (x0 : Vec F S400x8000 .f32) : Vec F S400x1 .f32 :=
  View.canon [⟨rDv, k0_pay1 (View.ld x0 rH0)⟩]
/-- The column sums of the block: what the first point leaves. -/
def deFirst (x0 : Vec F S400x8000 .f32) : Vec F S1x8000 .f32 :=
  View.canon [⟨rDe, k0_pay2 (View.ld x0 rH0)⟩]
/-- What a later point leaves over the running column sums `acc`. -/
def deNext (x0 : Vec F S400x8000 .f32) (acc : Vec F S1x8000 .f32) : Vec F S1x8000 .f32 :=
  View.canon [⟨rDe, k0_pay3 (View.ld x0 rH0) (View.ld acc rDe)⟩]

theorem coverDv (p0 : Vec F S400x1 .f32) (y : S400x1.Idx) :
    ∃ pc ∈ ([⟨rDv, p0⟩] : List (View.Piece (Elt F) S400x1 .f32)), y ∈ pc.1.set :=
  View.cover_of_tiled [⟨rDv, p0⟩] S400x1.size (by rfl) y
theorem coverDe (p0 : Vec F S1x8000 .f32) (y : S1x8000.Idx) :
    ∃ pc ∈ ([⟨rDe, p0⟩] : List (View.Piece (Elt F) S1x8000 .f32)), y ∈ pc.1.set :=
  View.cover_of_tiled [⟨rDe, p0⟩] S1x8000.size (by rfl) y

/-! ## The two branch conditions over the grid -/

theorem hcond0_1 : ∀ t : Fin cfg0.N, k0_cond1 (grid0.coords t) = 1#1 ↔ t.val = 0 :=
  (by decide +kernel : ∀ t : Fin grid0.N, k0_cond1 (grid0.coords t) = 1#1 ↔ t.val = 0)
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two stores into the column-sum window happens at every point. -/
theorem hlive0_2 : ∀ i : grid0.Coords, cfg0.idle 2 i = false :=
  (by decide +kernel : ∀ i : grid0.Coords, idle0 2 i = false)

/-! ## The body's triple, first point and later points -/

set_option maxHeartbeats 1000000 in
theorem sound_kernel0_A (c : Dev nD) (E : Set ℕ) (i : grid0.Coords) (arg1 : Memref sig .tc .vmem S400x8000 .f32) (harg1 : arg1.IsWhole)
    (arg2 : Memref sig .tc .vmem S400x1 .f32) (harg2 : arg2.IsWhole) (arg3 : Memref sig .tc .vmem S1x8000 .f32) (harg3 : arg3.IsWhole)
    (hc1 : k0_cond1 i = 1#1) (hc2 : ¬ k0_cond2 i = 1#1)
    (x0 : Vec F S400x8000 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (dvOut x0) ∗ owns (c : Thread nD τ) arg3 fullShare (deFirst x0)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverDv _)
  iexists _; isplitr
  swap; · iexact H2
  ipureintro
  exact View.read_writes_eq_canon _ _ _ (coverDe _)

set_option maxHeartbeats 1000000 in
theorem sound_kernel0_B (c : Dev nD) (E : Set ℕ) (i : grid0.Coords) (arg1 : Memref sig .tc .vmem S400x8000 .f32) (harg1 : arg1.IsWhole)
    (arg2 : Memref sig .tc .vmem S400x1 .f32) (harg2 : arg2.IsWhole) (arg3 : Memref sig .tc .vmem S1x8000 .f32) (harg3 : arg3.IsWhole)
    (hc1 : ¬ k0_cond1 i = 1#1) (hc2 : k0_cond2 i = 1#1)
    (x0 : Vec F S400x8000 .f32) (xo : Vec F S1x8000 .f32) (K : PUnit → sProp 𝕄) :
    iprop(owns (c : Thread nD τ) arg1 fullShare x0 ∗ (∃ d, owns (c : Thread nD τ) arg2 fullShare d) ∗ owns (c : Thread nD τ) arg3 fullShare xo
        ∗ (iprop(owns (c : Thread nD τ) arg1 fullShare x0 ∗ owns (c : Thread nD τ) arg2 fullShare (dvOut x0) ∗ owns (c : Thread nD τ) arg3 fullShare (deNext x0 xo)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverDv _)
  iexists _; isplitr
  swap; · iexact H2
  ipureintro
  exact View.read_writes_eq_canon _ _ _ (coverDe _)

/-! ## The running column sums, point by point -/

/-- What the column-sum window's buffer holds after the body at position `n`. -/
def deAt (c : Dev nD) : (n : ℕ) → n < cfg0.N → Vec F S1x8000 .f32
  | 0, hn => deFirst (iblk0 V c 0 ⟨0, hn⟩)
  | n + 1, hn => deNext (iblk0 V c 0 ⟨n + 1, hn⟩) (deAt c n (Nat.lt_of_succ_lt hn))

theorem deAt_zero (c : Dev nD) (t : Fin cfg0.N) (h0 : t.val = 0) :
    deAt V c t.val t.isLt = deFirst (iblk0 V c 0 t) := by
  obtain ⟨n, hn⟩ := t
  cases n with
  | zero => rfl
  | succ n => exact absurd h0 (Nat.succ_ne_zero n)

theorem deAt_pos (c : Dev nD) (t : Fin cfg0.N) (h0 : t.val ≠ 0) :
    deAt V c t.val t.isLt = deNext (iblk0 V c 0 t) (deAt V c (t.val - 1) (Nat.lt_of_le_of_lt (Nat.sub_le _ _) t.isLt)) := by
  obtain ⟨n, hn⟩ := t
  cases n with
  | zero => exact absurd rfl h0
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dvOut (iblk0 V c 0 t)
    | ⟨2, _⟩ => deAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = dvOut (iblk0 V c 0 t) := by dsimp only [dat0]
theorem after0_2 (c : Dev nD) (t : Fin cfg0.N) : (dat0 V c).after 2 t = deAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the column-sum window's buffer holds what the point before left: it is written back at the
    last point only. -/
theorem before0_2_pos (c : Dev nD) (t : Fin cfg0.N) (h0 : t.val ≠ 0) (d) :
    (dat0 V c).before 2 t d = deAt V c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    hlive0_2 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [deAt_zero V c t h0]
    iintro ⟨HΦ, Ho, ⟨%d0, H0⟩, ⟨%d1, H1⟩, ⟨%d2, H2⟩⟩
    iapply (sound_kernel0_A c Set.univ (grid0.coords t) _ _ _ _ _ _ ((hcond0_1 t).mpr h0) (fun h => ((hcond0_2 t).mp h) h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [deAt_pos V c t h0]
    simp only [before0_2_pos V c t h0]
    iintro ⟨HΦ, Ho, ⟨%d0, H0⟩, ⟨%d1, H1⟩, ⟨%d2, H2⟩⟩
    iapply (sound_kernel0_B c Set.univ (grid0.coords t) _ _ _ _ _ _ (fun h => h0 ((hcond0_1 t).mp h)) ((hcond0_2 t).mpr h0) (iblk0 V c 0 t) _ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the pipeline's rule, at every point. -/
theorem body_obligation0 (c : Dev nD) : BodyObligation (dat0 (F := F) V c) (defs₀ (F := F)) Variants.none () Set.univ := fun t => by
  rw [bigSep_W0, bigSep_W0]
  rw [show cfg0.idle 2 (cfg0.grid.coords t) = false from hlive0_2 _]
  exact sound_body0 V c t

end Cert.KernelIdeal.Fr

end
-- ==== Proof.KI.Reg1.lean ====
/-
  Region 1 of the program: the transposed product on a grid of 50 row blocks. At a point the body reads the
  400 x 8000 block of the incidence array and the 400 x 64 block of the scaled features and contracts them over
  the 400 rows into an 8000 x 64 product; the output window keeps the running sum over the blocks: at the first
  point the block's product, at every later point what the point before left plus the block's product. Stated at
  a parameter `V`, the buffers' contents when the region is entered, and for any float instance.
-/
import proofs.«132042_j80255758893061_1_alg».proof.Proof.Gen.KernelIdeal.Launch
import proofs.«132042_j80255758893061_1_alg».proof.Proof.Gen.KernelIdeal.Skeleton
import proofs.«132042_j80255758893061_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole staging buffer -/

abbrev rH1 : Rect S400x8000 := Rect.unit (s := S400x8000) ![0, 0] S400x8000.size inb_S400x8000_S400x8000_0_0
abbrev rX1 : Rect S400x64 := Rect.unit (s := S400x64) ![0, 0] S400x64.size inb_S400x64_S400x64_0_0
abbrev rP1 : Rect S8000x64 := Rect.unit (s := S8000x64) ![0, 0] S8000x64.size inb_S8000x64_S8000x64_0_0

/-! ## What the body leaves in the output window's buffer -/

/-- The block's product: what the first point leaves. -/
def accFirst (x0 : Vec F S400x8000 .f32) (x1 : Vec F S400x64 .f32) : Vec F S8000x64 .f32 :=
  View.canon [⟨rP1, k1_pay1 (View.ld x0 rH1) (View.ld x1 rX1)⟩]
/-- What a later point leaves over the running sum `acc`. -/
def accNext (x0 : Vec F S400x8000 .f32) (x1 : Vec F S400x64 .f32) (acc : Vec F S8000x64 .f32) : Vec F S8000x64 .f32 :=
  View.canon [⟨rP1, k1_pay2 (View.ld x0 rH1) (View.ld x1 rX1) (View.ld acc rP1)⟩]

theorem coverP1 (p0 : Vec F S8000x64 .f32) (y : S8000x64.Idx) :
    ∃ pc ∈ ([⟨rP1, p0⟩] : List (View.Piece (Elt F) S8000x64 .f32)), y ∈ pc.1.set :=
  View.cover_of_tiled [⟨rP1, p0⟩] S8000x64.size (by rfl) y

/-! ## The two branch conditions over the grid -/

theorem hcond1_1 : ∀ t : Fin cfg1.N, k1_cond1 (grid1.coords t) = 1#1 ↔ t.val = 0 :=
  (by decide +kernel : ∀ t : Fin grid1.N, k1_cond1 (grid1.coords t) = 1#1 ↔ t.val = 0)
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)
/-- One of the two stores into the output window happens at every point. -/
theorem hlive1_2 : ∀ i : grid1.Coords, cfg1.idle 2 i = false :=
  (by decide +kernel : ∀ i : grid1.Coords, idle1 2 i = false)

/-! ## The body's triple, first point and later points -/

set_option maxHeartbeats 1000000 in
theorem sound_kernel1_A (c : Dev nD) (E : Set ℕ) (i : grid1.Coords) (arg1 : Memref sig .tc .vmem S400x8000 .f32) (harg1 : arg1.IsWhole)
    (arg2 : Memref sig .tc .vmem S400x64 .f32) (harg2 : arg2.IsWhole) (arg3 : Memref sig .tc .vmem S8000x64 .f32) (harg3 : arg3.IsWhole)
    (hc1 : k1_cond1 i = 1#1) (hc2 : ¬ k1_cond2 i = 1#1)
    (x0 : Vec F S400x8000 .f32) (x1 : Vec F S400x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (accFirst x0 x1)) -∗ K ⟨⟩))
      ⊢ wp frame (wpE (defs₀ (F := F)) Variants.none c none) E (cc1__hT_x_kernel i arg1 harg1 arg2 harg2 arg3 harg3) K := by
  simp only [cc1__hT_x_kernel_eq_skeleton]; unfold cc1__hT_x_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP1 _)

set_option maxHeartbeats 1000000 in
theorem sound_kernel1_B (c : Dev nD) (E : Set ℕ) (i : grid1.Coords) (arg1 : Memref sig .tc .vmem S400x8000 .f32) (harg1 : arg1.IsWhole)
    (arg2 : Memref sig .tc .vmem S400x64 .f32) (harg2 : arg2.IsWhole) (arg3 : Memref sig .tc .vmem S8000x64 .f32) (harg3 : arg3.IsWhole)
    (hc1 : ¬ k1_cond1 i = 1#1) (hc2 : k1_cond2 i = 1#1)
    (x0 : Vec F S400x8000 .f32) (x1 : Vec F S400x64 .f32) (xo : Vec F S8000x64 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (accNext x0 x1 xo)) -∗ K ⟨⟩))
      ⊢ wp frame (wpE (defs₀ (F := F)) Variants.none c none) E (cc1__hT_x_kernel i arg1 harg1 arg2 harg2 arg3 harg3) K := by
  simp only [cc1__hT_x_kernel_eq_skeleton]; unfold cc1__hT_x_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP1 _)

/-! ## The running sum, point by point -/

/-- What the output window's buffer holds after the body at position `n`. -/
def accAt1 (c : Dev nD) : (n : ℕ) → n < cfg1.N → Vec F S8000x64 .f32
  | 0, hn => accFirst (iblk1 V c 0 ⟨0, hn⟩) (iblk1 V c 1 ⟨0, hn⟩)
  | n + 1, hn => accNext (iblk1 V c 0 ⟨n + 1, hn⟩) (iblk1 V c 1 ⟨n + 1, hn⟩) (accAt1 c n (Nat.lt_of_succ_lt hn))

theorem accAt1_zero (c : Dev nD) (t : Fin cfg1.N) (h0 : t.val = 0) :
    accAt1 V c t.val t.isLt = accFirst (iblk1 V c 0 t) (iblk1 V c 1 t) := by
  obtain ⟨n, hn⟩ := t
  cases n with
  | zero => rfl
  | succ n => exact absurd h0 (Nat.succ_ne_zero n)

theorem accAt1_pos (c : Dev nD) (t : Fin cfg1.N) (h0 : t.val ≠ 0) :
    accAt1 V c t.val t.isLt = accNext (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- After the first point the output window's buffer holds what the point before left: it is written back at the
    last point only. -/
theorem before1_2_pos (c : Dev nD) (t : Fin cfg1.N) (h0 : t.val ≠ 0) (d) :
    (dat1 V c).before 2 t d = accAt1 V c (t.val - 1) (Nat.lt_of_le_of_lt (Nat.sub_le _ _) t.isLt) := by
  have hN : t.val < 50 := lt_of_lt_of_eq t.isLt (show cfg1.N = 50 from N_1)
  rw [Dat.before_out_kept _ 2 rfl t h0 (Bool.eq_false_iff.mpr fun h => by have := (flush1_2 _).mp h; dsimp only at this; omega)
    hlive1_2 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [accAt1_zero V c t h0]
    iintro ⟨HΦ, Ho, ⟨%d0, H0⟩, ⟨%d1, H1⟩, ⟨%d2, H2⟩⟩
    iapply (sound_kernel1_A c Set.univ (grid1.coords t) _ _ _ _ _ _ ((hcond1_1 t).mpr h0) (fun h => ((hcond1_2 t).mp h) h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt1_pos V c t h0]
    simp only [before1_2_pos V c t h0]
    iintro ⟨HΦ, Ho, ⟨%d0, H0⟩, ⟨%d1, H1⟩, ⟨%d2, H2⟩⟩
    iapply (sound_kernel1_B c Set.univ (grid1.coords t) _ _ _ _ _ _ (fun h => h0 ((hcond1_1 t).mp h)) ((hcond1_2 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the pipeline's rule, at every point. -/
theorem body_obligation1 (c : Dev nD) : BodyObligation (dat1 (F := F) V c) (defs₀ (F := F)) Variants.none () Set.univ := fun t => by
  rw [bigSep_W1, bigSep_W1]
  rw [show cfg1.idle 2 (cfg1.grid.coords t) = false from hlive1_2 _]
  exact sound_body1 V c t

end Cert.KernelIdeal.Fr

end
-- ==== Proof.KI.Reg2.lean ====
/-
  Region 2 of the program: the product of a 400 x 8000 row block of the incidence array with the whole
  8000 x 64 operand, on a grid of 50 row blocks; the body stores the 400 x 64 product into the output
  window at every point. Stated at a parameter `V`, the buffers' contents when the region is entered, and
  for any float instance.
-/
import proofs.«132042_j80255758893061_1_alg».proof.Proof.Gen.KernelIdeal.Launch
import proofs.«132042_j80255758893061_1_alg».proof.Proof.Gen.KernelIdeal.Skeleton
import proofs.«132042_j80255758893061_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole staging buffer -/

abbrev rH2 : Rect S400x8000 := Rect.unit (s := S400x8000) ![0, 0] S400x8000.size inb_S400x8000_S400x8000_0_0
abbrev rB2 : Rect S8000x64 := Rect.unit (s := S8000x64) ![0, 0] S8000x64.size inb_S8000x64_S8000x64_0_0
abbrev rO2 : Rect S400x64 := Rect.unit (s := S400x64) ![0, 0] S400x64.size inb_S400x64_S400x64_0_0

/-- The block product the body leaves in the output window's buffer. -/
def prodOut (x0 : Vec F S400x8000 .f32) (x1 : Vec F S8000x64 .f32) : Vec F S400x64 .f32 :=
  View.canon [⟨rO2, k2_pay1 (View.ld x0 rH2) (View.ld x1 rB2)⟩]

theorem coverO2 (p0 : Vec F S400x64 .f32) (y : S400x64.Idx) :
    ∃ pc ∈ ([⟨rO2, p0⟩] : List (View.Piece (Elt F) S400x64 .f32)), y ∈ pc.1.set :=
  View.cover_of_tiled [⟨rO2, p0⟩] S400x64.size (by rfl) y

/-! ## The body's triple -/

set_option maxHeartbeats 1000000 in
theorem sound_kernel2 (c : Dev nD) (E : Set ℕ) (i : grid2.Coords) (arg1 : Memref sig .tc .vmem S400x8000 .f32) (harg1 : arg1.IsWhole)
    (arg2 : Memref sig .tc .vmem S8000x64 .f32) (harg2 : arg2.IsWhole) (arg3 : Memref sig .tc .vmem S400x64 .f32) (harg3 : arg3.IsWhole)
    (x0 : Vec F S400x8000 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodOut x0 x1)) -∗ K ⟨⟩))
      ⊢ wp frame (wpE (defs₀ (F := F)) Variants.none c none) E (cc2__h_x_kernel i arg1 harg1 arg2 harg2 arg3 harg3) K := by
  simp only [cc2__h_x_kernel_eq_skeleton]; unfold cc2__h_x_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO2 _)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => prodOut (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = prodOut (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
/-
  The buffers' contents at each boundary between the program's items, as a fold from the launch memory: a kernel
  region leaves its arrays at what its write-backs leave and every other buffer as entered; a stretch of host
  operations leaves what the operations compute. The argument arrays come through unchanged.
-/
import proofs.«132042_j80255758893061_1_alg».proof.Proof.KI.Reg0
import proofs.«132042_j80255758893061_1_alg».proof.Proof.KI.Reg1
import proofs.«132042_j80255758893061_1_alg».proof.Proof.KI.Reg2
import proofs.«132042_j80255758893061_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch: region 0's entry. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations `hostOps1`. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At region 1's exit: its arrays at what the write-backs leave, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the host operations `hostOps2`. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- At region 2's exit: its arrays at what the write-backs leave, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the core's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-- After the host operations `hostOps3`. -/
abbrev W6 : Dev nD → Valuation τ sig (Elt F) := fun c => StableHlo.after hostOps3 (W5 m ρ c)
abbrev E6 : (c : Dev nD) → (b : Ref sig .tc) → Buf (Elt F) ((c : Thread nD τ).loc b) := fun c b => W6 m ρ c b

/-! ## The arguments come through unchanged -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := (W5_arr m ρ c 0).trans (((dat2 (E4 m ρ) c).arrAt_in 0 rfl _).trans (A_eq2 (E4 m ρ) c 0))
    _ = W3 m ρ c (Proc.devRef .tc main_arg0) := StableHlo.after_of_writes_sub hostOps2 _ hostOps2_writes (by decide)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

end Cert.KernelIdeal.Fr

end
-- ==== Proof.KI.Run.lean ====
/-
  The program's run: @main as its six items in order (region 0, host operations, region 1, host operations, region 2,
  host operations), each region entered with every unscoped buffer at the boundary's contents; every weakly fair
  execution terminates with every unscoped buffer at the last boundary's contents.
-/
import proofs.«132042_j80255758893061_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 over the thread state: entered with every unscoped buffer at `W0`, left with them at `W1`. The
    region's arrays are split out of the unscoped buffers at entry and put back, at what the write-backs leave, at exit;
    the generator register passes through the region's invariant; nothing is owed. -/
def regS0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. The
    region's arrays are split out of the unscoped buffers at entry and put back, at what the write-backs leave, at exit;
    the generator register passes through the region's invariant; nothing is owed. -/
def regS1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. The
    region's arrays are split out of the unscoped buffers at entry and put back, at what the write-backs leave, at exit;
    the generator register passes through the region's invariant; nothing is owed. -/
def regS2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segsAll : List (Pipeline.Seg (pcfgs (F := F)) adm (pdats m ρ) () defs₀ 𝒱₀ L lv) :=
  [ .region (regS0 m ρ),
    .host (hseg hostOps1 hostOps1_sub hostOps1_fresh (W1 m ρ)),
    .region (regS1 m ρ),
    .host (hseg hostOps2 hostOps2_sub hostOps2_fresh (W3 m ρ)),
    .region (regS2 m ρ),
    .host (hseg hostOps3 hostOps3_sub hostOps3_fresh (W5 m ρ)) ]
theorem main_run (c : Dev nD) : main (F := F) c = Pipeline.Seg.run (segsAll m ρ) := (main_chain c).trans (by chain_rfl)

set_option backward.isDefEq.respectTransparency.types false in
/-- THE RUN: from any memory with zero counters every weakly fair execution of @main terminates, nothing faulting, and
    every final state has every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m ρ c),
     (h c _ (mem_uc main_arg1 (by decide))).trans (W6_main_arg1 m ρ c)⟩) (run_all m ρ)

end Cert.KernelIdeal.Fr

end
-- ==== Proof.Spec.lean ====
/-
  The common value of both programs, index by index, over the extended reals.

  With `H` the incidence array (20000 nodes by 8000 hyperedges) and `X` the feature array (20000 by 64):
  the node degree `dv n` is the sum of row `n` of `H`, the hyperedge degree `de e` the sum of column `e`;
  `a n = 1 / sqrt (dv n + eps)` and `b e = 1 / (de e + eps)`; and the result is
  `out n f = (sum over e of H n e * ((sum over n' of H n' e * (X n' f * a n')) * b e)) * a n`.
  The literals are kept as the binary words both programs print.
-/
import Idealize.ShloMosaic.PureOps.Ideal
import Idealize.ShloMosaic.Lib.ValueIdx

noncomputable section

namespace Cert.Spec

open Idealize.ShloMosaic Idealize.ShloMosaic.ValueIdx

/-- The incidence array's shape and the feature array's. -/
abbrev SH : Shape := ⟨2, ![20000, 8000]⟩
abbrev SX : Shape := ⟨2, ![20000, 64]⟩

/-- The three float literals of both programs: `0.0` (a sum's start), `1e-10` and `1.0`. -/
abbrev zero : EReal := Ideal.ofBits .f32 0x00000000#32
abbrev eps : EReal := Ideal.ofBits .f32 0x2EDBE6FF#32
abbrev one : EReal := Ideal.ofBits .f32 0x3F800000#32

/-- An array of extended reals over a literal shape, named at that type (so that `+`, `*` and `∑` on its entries are
    the extended reals'). -/
abbrev vec (S : Shape) (f : S.Idx → EReal) : S.Idx → EReal := f

variable (H : SH.Idx → EReal) (X : SX.Idx → EReal)

/-- Node degree: row sum of `H`, from the sum's start value. -/
def dv (n : Fin 20000) : EReal := zero + ∑ e : Fin 8000, H (ix2 n e)
/-- Hyperedge degree: column sum of `H`. -/
def de (e : Fin 8000) : EReal := zero + ∑ n : Fin 20000, H (ix2 n e)
/-- `1 / sqrt (dv + eps)`. -/
def a (n : Fin 20000) : EReal := Ideal.div one (Ideal.sqrt (dv H n + eps))
/-- `1 / (de + eps)`. -/
def b (e : Fin 8000) : EReal := Ideal.div one (de H e + eps)
/-- The features scaled by the node factor. -/
def x1 (n : Fin 20000) (f : Fin 64) : EReal := X (ix2 n f) * a H n
/-- `Hᵀ · x1`. -/
def x2 (e : Fin 8000) (f : Fin 64) : EReal := ∑ n : Fin 20000, H (ix2 n e) * x1 H X n f
/-- scaled by the hyperedge factor. -/
def x3 (e : Fin 8000) (f : Fin 64) : EReal := x2 H X e f * b H e
/-- `H · x3`. -/
def x4 (n : Fin 20000) (f : Fin 64) : EReal := ∑ e : Fin 8000, H (ix2 n e) * x3 H X e f
/-- The result at node `n`, feature `f`. -/
def out (n : Fin 20000) (f : Fin 64) : EReal := x4 H X n f * a H n

/-- The result as an array. -/
def G : SX.Idx → EReal := fun i => out H X ⟨(i 0).val, (i 0).isLt⟩ ⟨(i 1).val, (i 1).isLt⟩

end Cert.Spec

end
-- ==== Proof.KI.Val0.lean ====
/-
  The values of the degree region. The incidence array `H` (20000 rows, 8000 columns) is read in fifty
  blocks of 400 rows. At each block the region stores the block's row sums into its rows of the first
  output, so that output ends holding, at row `n`, the sum of row `n` of `H`: the node degree. The second
  output keeps a running sum: the first block's column sums, then at every later block what was there plus
  that block's column sums; only the last block writes it back, and by then it is, at column `e`, the sum
  over all fifty blocks of the sums of column `e` over each block's rows, which is the sum of column `e` over
  all 20000 rows: the hyperedge degree. Both sums start from the zero word, which is the extended real 0.
-/
import proofs.«132042_j80255758893061_1_alg».proof.Proof.KI.Reg0
import proofs.«132042_j80255758893061_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

namespace Deg

/-- The two zero offsets of a whole-buffer access. -/
theorem hz2 : (![0, 0] : Fin 2 → Nat) = fun _ => 0 := funext fun a => by fin_cases a <;> rfl

/-- The first payload at row `r`: the sum of the block's row `r` over its 8000 columns. -/
theorem rowsum_apply (x0 : Vec Ideal S400x8000 .f32) (r : Fin 400) (u : Fin 1) :
    k0_pay1 (F := Ideal) x0 (ix2 r u) = ∑ e : Fin 8000, x0 (ix2 r e) := by
  unfold k0_pay1
  refine (shapeCast_apply _ shapeCasts_S400_S400x1 (ix2 r u) (ix1 r) ?_).trans ?_
  · rw [Shape.rowMajor_val_one, Shape.rowMajor_val_two]
    show r.val = r.val * 1 + u.val
    omega
  · refine (Ideal.multiReduction_add_single x0 _ reduces_S400x8000_S400 _ _ (ix1 r)).trans ?_
    refine Finset.sum_congr rfl fun e _ => congrArg x0 ?_
    funext a
    match a with
    | ⟨0, _⟩ => rfl
    | ⟨1, _⟩ => rfl

/-- The second payload at column `e`: the sum of the block's column `e` over its 400 rows. -/
theorem colsum_apply (x0 : Vec Ideal S400x8000 .f32) (u : Fin 1) (e : Fin 8000) :
    k0_pay2 (F := Ideal) x0 (ix2 u e) = ∑ r : Fin 400, x0 (ix2 r e) := by
  unfold k0_pay2
  refine (shapeCast_apply _ shapeCasts_S8000_S1x8000 (ix2 u e) (ix1 e) ?_).trans ?_
  · rw [Shape.rowMajor_val_one, Shape.rowMajor_val_two]
    show e.val = u.val * 8000 + e.val
    omega
  · refine (Ideal.multiReduction_add_single x0 _ reduces_S400x8000_S8000 _ _ (ix1 e)).trans ?_
    refine Finset.sum_congr rfl fun r _ => congrArg x0 ?_
    funext a
    match a with
    | ⟨0, _⟩ => rfl
    | ⟨1, _⟩ => rfl

/-- The third payload at column `e`: the running value there plus the block's column sum. -/
theorem colacc_apply (x0 : Vec Ideal S400x8000 .f32) (acc : Vec Ideal S1x8000 .f32) (u : Fin 1) (e : Fin 8000) :
    k0_pay3 (F := Ideal) x0 acc (ix2 u e) = acc (ix2 u e) + ∑ r : Fin 400, x0 (ix2 r e) := by
  unfold k0_pay3
  rw [shapeCast_self]
  show acc (ix2 u e) + k0_pay2 (F := Ideal) x0 (ix2 u e) = _
  rw [colsum_apply]

/-- One store through the whole buffer leaves its payload, and a load through the whole buffer reads it. -/
theorem dvOut_eq (x0 : Vec Ideal S400x8000 .f32) : dvOut (F := Ideal) x0 = k0_pay1 (F := Ideal) x0 := by
  unfold dvOut
  rw [View.canon_unit_zero hz2, View.ld_unit_zero (S := S400x8000) hz2]

theorem deFirst_eq (x0 : Vec Ideal S400x8000 .f32) : deFirst (F := Ideal) x0 = k0_pay2 (F := Ideal) x0 := by
  unfold deFirst
  rw [View.canon_unit_zero hz2, View.ld_unit_zero (S := S400x8000) hz2]

theorem deNext_eq (x0 : Vec Ideal S400x8000 .f32) (acc : Vec Ideal S1x8000 .f32) :
    deNext (F := Ideal) x0 acc = k0_pay3 (F := Ideal) x0 acc := by
  unfold deNext
  rw [View.canon_unit_zero hz2, View.ld_unit_zero (S := S400x8000) hz2, View.ld_unit_zero (S := S1x8000) hz2]

variable (V : (c : Dev nD) → (b : Ref sig .tc) → Buf (Elt Ideal) ((c : Thread nD τ).loc b))

/-- The block indices over the grid: the input's and the first output's block at point `t` is row block `t`;
    the second output's block never moves. -/
theorem idx_in : ∀ t : Fin cfg0.N, win0_0.index t (0 : Fin 2) = t.val ∧ win0_0.index t (1 : Fin 2) = 0 :=
  (by decide +kernel : ∀ t : Fin grid0.N, _)
theorem idx_dv : ∀ t : Fin cfg0.N, win0_1.index t (0 : Fin 2) = t.val ∧ win0_1.index t (1 : Fin 2) = 0 :=
  (by decide +kernel : ∀ t : Fin grid0.N, _)
theorem idx_de : ∀ t : Fin cfg0.N, win0_2.index t (0 : Fin 2) = 0 ∧ win0_2.index t (1 : Fin 2) = 0 :=
  (by decide +kernel : ∀ t : Fin grid0.N, _)

/-- Row `r` of the input block at point `t` is row `400 t + r` of `H`. -/
theorem blk_apply (c : Dev nD) (t : Fin cfg0.N) (r : Fin 400) (e : Fin 8000) (h : 400 * t.val + r.val < 20000) :
    (iblk0 V c 0 t : Vec Ideal S400x8000 .f32) (ix2 r e)
      = (V c main_arg0 : S20000x8000.Idx → EReal) (ix2 ⟨400 * t.val + r.val, h⟩ e) := by
  unfold iblk0
  rw [View.read_apply]
  show (V c main_arg0 : S20000x8000.Idx → EReal) (((cfg0.win 0).blk t).view.emb (ix2 r e)) = _
  congr 1
  funext a
  apply Fin.ext
  match a with
  | ⟨0, _⟩ =>
    show win0_0.index t (0 : Fin 2) * 400 + 1 * r.val = 400 * t.val + r.val
    rw [(idx_in t).1]; omega
  | ⟨1, _⟩ =>
    show win0_0.index t (1 : Fin 2) * 8000 + 1 * e.val = e.val
    rw [(idx_in t).2]; omega

/-- The row sums of a block whose row `r` is row `400 * k + r` of `H` are the node degrees of those rows. -/
theorem dvOut_apply (x0 : Vec Ideal S400x8000 .f32) (H : S20000x8000.Idx → EReal) (k : ℕ) (hk : k < 50)
    (hx : ∀ (r : Fin 400) (e : Fin 8000), x0 (ix2 r e) = H (ix2 ⟨400 * k + r.val, by omega⟩ e)) (j : S400x1.Idx) :
    dvOut (F := Ideal) x0 j = Cert.Spec.dv H ⟨400 * k + (j 0).val, by have := idx2_lt0 j; omega⟩ := by
  obtain ⟨r, u, rfl⟩ : ∃ (r : Fin 400) (u : Fin 1), j = ix2 r u := ⟨j 0, j 1, eq_ix2 j⟩
  rw [dvOut_eq, rowsum_apply]
  unfold Cert.Spec.dv
  rw [show Cert.Spec.zero = 0 from Ideal.ofBits_zero_f32, zero_add]
  exact Finset.sum_congr rfl fun e _ => hx r e

/-- What point `t` writes back into the first output is block `t` of the node degrees. -/
theorem flushed_dv (c : Dev nD) (t : Fin cfg0.N) :
    (dat0 V c).flushed 1 t = ((cfg0.win 1).blk t).view.read (Elt Ideal)
      (Cert.Spec.vec S20000x1 (fun i => Cert.Spec.dv (V c main_arg0) ⟨(i 0).val, (i 0).isLt⟩)) := by
  have hN : t.val < 50 := lt_of_lt_of_eq t.isLt (show cfg0.N = 50 from N_0)
  show (cfg0.win 1).cut (grid0.coords t) ((dat0 V c).after 1 t) = _
  rw [after0_1]
  funext j
  rw [View.read_apply]
  refine (dvOut_apply (iblk0 V c 0 t) (V c main_arg0) t.val hN (fun r e => blk_apply V c t r e (by omega)) j).trans ?_
  show _ = Cert.Spec.dv (V c main_arg0) ⟨((((cfg0.win 1).blk t).view.emb j) 0).val, _⟩
  refine congrArg (Cert.Spec.dv (V c main_arg0)) (Fin.ext ?_)
  show 400 * t.val + (j 0).val = win0_1.index t (0 : Fin 2) * 400 + 1 * (j 0).val
  rw [(idx_dv t).1]; omega

/-- A row of the degree column is in point `t`'s block iff it lies in that block's range of rows. -/
theorem mem_blk_dv (t : Fin cfg0.N) (i : S20000x1.Idx) :
    i ∈ ((cfg0.win 1).blk t).view.set ↔ ∀ a : Fin 2, win0_1.index t a * S400x1.size a ≤ (i a).val
      ∧ (i a).val < win0_1.index t a * S400x1.size a + S400x1.size a := by
  show i ∈ ((View.whole main_v0_0).slice (win0_1.rect t)).set ↔ _
  rw [View.set_slice_whole, Rect.mem_set_unit]
  exact Iff.rfl

/-- Row `n` of the degree column lies in the block of point `n / 400`. -/
theorem cover_dv (i : S20000x1.Idx) :
    ∃ t : Fin cfg0.N, (cfg0.win 1).flush t = true ∧ i ∈ ((cfg0.win 1).blk t).view.set := by
  have hi0 : (i 0).val < 20000 := idx2_lt0 i
  have hi1 : (i 1).val < 1 := idx2_lt1 i
  have hN : cfg0.N = 50 := N_0
  refine ⟨⟨(i 0).val / 400, by rw [hN]; omega⟩, flush0_1 _, ?_⟩
  rw [mem_blk_dv]
  intro a
  obtain ⟨e0, e1⟩ := idx_dv ⟨(i 0).val / 400, by rw [hN]; omega⟩
  match a with
  | ⟨0, _⟩ =>
    show win0_1.index _ (0 : Fin 2) * 400 ≤ (i 0).val ∧ (i 0).val < win0_1.index _ (0 : Fin 2) * 400 + 400
    rw [e0]; dsimp only; omega
  | ⟨1, _⟩ =>
    show win0_1.index _ (1 : Fin 2) * 1 ≤ (i 1).val ∧ (i 1).val < win0_1.index _ (1 : Fin 2) * 1 + 1
    rw [e1]; omega

/-- The blocks tile the degree column, so the array ends holding the node degrees. -/
theorem dv_arr (c : Dev nD) : (dat0 V c).arrAt 1 cfg0.N
    = Cert.Spec.vec S20000x1 (fun i => Cert.Spec.dv (V c main_arg0) ⟨(i 0).val, (i 0).isLt⟩) :=
  (dat0 V c).arrAt_eq_of_cover 1 _ (fun t _ => flushed_dv V c t) cover_dv

/-! ## The column sums: accumulated over the fifty row blocks -/

/-- Column `e` of `H` as a function of a natural row number, zero past the last row. -/
def col (H : S20000x8000.Idx → EReal) (e : Fin 8000) (m : ℕ) : EReal :=
  if h : m < 20000 then H (ix2 ⟨m, h⟩ e) else 0

/-- The column sums of the block at point `t` are the sums of column `e` over rows `400 t … 400 t + 399`. -/
theorem blk_colsum (c : Dev nD) (t : Fin cfg0.N) (e : Fin 8000) :
    ∑ r : Fin 400, Cert.Spec.vec S400x8000 (iblk0 V c 0 t) (ix2 r e)
      = ∑ r ∈ Finset.range 400, col (V c main_arg0) e (400 * t.val + r) := by
  have hN : t.val < 50 := lt_of_lt_of_eq t.isLt (show cfg0.N = 50 from N_0)
  rw [Finset.sum_range]
  refine Finset.sum_congr rfl fun r _ => ?_
  have h : 400 * t.val + r.val < 20000 := by omega
  refine (blk_apply V c t r e h).trans ?_
  unfold col
  rw [dif_pos h]

/-- After point `n` the running column sums are the sums over the first `400 (n + 1)` rows. -/
theorem deAt_apply (c : Dev nD) : ∀ (n : ℕ) (hn : n < cfg0.N) (u : Fin 1) (e : Fin 8000),
    (deAt V c n hn : Vec Ideal S1x8000 .f32) (ix2 u e)
      = ∑ m ∈ Finset.range (400 * (n + 1)), col (V c main_arg0) e m
  | 0, hn, u, e => by
    show deFirst (F := Ideal) (iblk0 V c 0 ⟨0, hn⟩) (ix2 u e) = _
    rw [deFirst_eq, colsum_apply]
    refine (blk_colsum V c ⟨0, hn⟩ e).trans ?_
    refine Finset.sum_congr rfl fun r _ => ?_
    show col _ e (400 * 0 + r) = _
    rw [Nat.mul_zero, Nat.zero_add]
  | n + 1, hn, u, e => by
    show deNext (F := Ideal) (iblk0 V c 0 ⟨n + 1, hn⟩) (deAt V c n (Nat.lt_of_succ_lt hn)) (ix2 u e) = _
    rw [deNext_eq, colacc_apply, deAt_apply c n (Nat.lt_of_succ_lt hn) u e,
      show 400 * (n + 1 + 1) = 400 * (n + 1) + 400 from by omega, Finset.sum_range_add]
    exact congrArg _ (blk_colsum V c ⟨n + 1, hn⟩ e)

/-- The sum of a column over all rows, from the sum's start value, is the hyperedge degree. -/
theorem col_sum_all (H : S20000x8000.Idx → EReal) (e : Fin 8000) :
    ∑ m ∈ Finset.range 20000, col H e m = Cert.Spec.de H e := by
  unfold Cert.Spec.de
  rw [show Cert.Spec.zero = 0 from Ideal.ofBits_zero_f32, zero_add, Finset.sum_range]
  refine Finset.sum_congr rfl fun n _ => ?_
  unfold col
  rw [dif_pos n.isLt]

/-- The same at any index of the one-row block. -/
theorem deAt_idx (c : Dev nD) (n : ℕ) (hn : n < cfg0.N) (j : S1x8000.Idx) :
    (deAt V c n hn : Vec Ideal S1x8000 .f32) j
      = ∑ m ∈ Finset.range (400 * (n + 1)), col (V c main_arg0) ⟨(j 1).val, idx2_lt1 j⟩ m := by
  obtain ⟨u, e, rfl⟩ : ∃ (u : Fin 1) (e : Fin 8000), j = ix2 u e := ⟨j 0, j 1, eq_ix2 j⟩
  exact deAt_apply V c n hn u e

/-- An index of the one-row array is in point `t`'s block iff each coordinate is in the block's range. -/
theorem mem_blk_de (t : Fin cfg0.N) (i : S1x8000.Idx) :
    i ∈ ((cfg0.win 2).blk t).view.set ↔ ∀ a : Fin 2, win0_2.index t a * S1x8000.size a ≤ (i a).val
      ∧ (i a).val < win0_2.index t a * S1x8000.size a + S1x8000.size a := by
  show i ∈ ((View.whole main_v0_1).slice (win0_2.rect t)).set ↔ _
  rw [View.set_slice_whole, Rect.mem_set_unit]
  exact Iff.rfl

/-- The one write-back, at the last point, writes the sums over all fifty blocks: the hyperedge degrees. -/
theorem flushed_de (c : Dev nD) (t : Fin cfg0.N) (hf : (cfg0.win 2).flush t = true) :
    (dat0 V c).flushed 2 t = ((cfg0.win 2).blk t).view.read (Elt Ideal)
      (Cert.Spec.vec S1x8000 (fun i => Cert.Spec.de (V c main_arg0) ⟨(i 1).val, (i 1).isLt⟩)) := by
  have hN : t.val < 50 := lt_of_lt_of_eq t.isLt (show cfg0.N = 50 from N_0)
  have h49 : t.val = 49 := by have := (flush0_2 t).mp hf; omega
  show (cfg0.win 2).cut (grid0.coords t) ((dat0 V c).after 2 t) = _
  rw [after0_2]
  funext j
  rw [View.read_apply]
  refine (deAt_idx V c t.val t.isLt j).trans ?_
  rw [show 400 * (t.val + 1) = 20000 from by omega, col_sum_all]
  show _ = Cert.Spec.de (V c main_arg0) ⟨((((cfg0.win 2).blk t).view.emb j) 1).val, _⟩
  refine congrArg (Cert.Spec.de (V c main_arg0)) (Fin.ext ?_)
  show (j 1).val = win0_2.index t (1 : Fin 2) * 8000 + 1 * (j 1).val
  rw [(idx_de t).2]; omega

/-- The last point's block is the whole array. -/
theorem cover_de (i : S1x8000.Idx) :
    ∃ t : Fin cfg0.N, (cfg0.win 2).flush t = true ∧ i ∈ ((cfg0.win 2).blk t).view.set := by
  have hi0 : (i 0).val < 1 := idx2_lt0 i
  have hi1 : (i 1).val < 8000 := idx2_lt1 i
  have hN : cfg0.N = 50 := N_0
  refine ⟨⟨49, by rw [hN]; omega⟩, (flush0_2 _).mpr rfl, ?_⟩
  rw [mem_blk_de]
  intro a
  obtain ⟨e0, e1⟩ := idx_de ⟨49, by rw [hN]; omega⟩
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 8000 ≤ (i 1).val ∧ (i 1).val < win0_2.index _ (1 : Fin 2) * 8000 + 8000
    rw [e1]; omega

/-- The last point's block is the whole one-row array, so the array ends holding the hyperedge degrees. -/
theorem de_arr (c : Dev nD) : (dat0 V c).arrAt 2 cfg0.N
    = Cert.Spec.vec S1x8000 (fun i => Cert.Spec.de (V c main_arg0) ⟨(i 1).val, (i 1).isLt⟩) :=
  (dat0 V c).arrAt_eq_of_cover 2 _ (flushed_de V c) cover_de

end Deg

variable (V : (c : Dev nD) → (b : Ref sig .tc) → Buf (Elt Ideal) ((c : Thread nD τ).loc b))

/-- After the region the first output array holds the node degrees. -/
theorem dv_arr (c : Dev nD) : (dat0 V c).arrAt 1 cfg0.N
    = Cert.Spec.vec S20000x1 (fun i => Cert.Spec.dv (V c main_arg0) ⟨(i 0).val, (i 0).isLt⟩) :=
  Deg.dv_arr V c

/-- After the region the second output array holds the hyperedge degrees. -/
theorem de_arr (c : Dev nD) : (dat0 V c).arrAt 2 cfg0.N
    = Cert.Spec.vec S1x8000 (fun i => Cert.Spec.de (V c main_arg0) ⟨(i 1).val, (i 1).isLt⟩) :=
  Deg.de_arr V c

end Cert.KernelIdeal.Val
end
-- ==== Proof.KI.Val1.lean ====
/-
  The transposed product, read as values over the extended reals. At a grid point the body contracts the 400 x 8000
  block of the incidence array with the 400 x 64 block of the scaled features over the block's 400 rows; the output
  window keeps the running sum of these products over the 50 row blocks and is written back once, after the last
  block. Row r of block i is row 400 * i + r of the arrays, so the array ends holding, at (e, f), the sum over all
  20000 rows n of H[n, e] * X1[n, f].
-/
import proofs.«132042_j80255758893061_1_alg».proof.Proof.KI.Reg1
import proofs.«132042_j80255758893061_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

/-! ## The block product at an index -/

theorem x2_hz : (![0, 0] : Fin 2 → Nat) = fun _ => 0 := funext fun a => by fin_cases a <;> rfl

theorem x2_lhs0 (i : S8000x64.Idx) (q : dot_S400x8000_S400x64_S8000x64_0_0_1_1_n_n.contr.Idx) :
    (dot_S400x8000_S400x64_S8000x64_0_0_1_1_n_n.lhsIdx i q 0).val = (q ⟨0, by decide⟩).val :=
  dot_S400x8000_S400x64_S8000x64_0_0_1_1_n_n.lhsIdx_val_of_single rfl i q
theorem x2_lhs1 (i : S8000x64.Idx) (q : dot_S400x8000_S400x64_S8000x64_0_0_1_1_n_n.contr.Idx) :
    (dot_S400x8000_S400x64_S8000x64_0_0_1_1_n_n.lhsIdx i q 1).val = (i 0).val := by
  unfold DotDims.lhsIdx
  rw [dif_neg (show ¬(1 : Fin S400x8000.rank) ∈ dot_S400x8000_S400x64_S8000x64_0_0_1_1_n_n.lhsBatch by decide), dif_pos (show (1 : Fin S400x8000.rank) ∈ dot_S400x8000_S400x64_S8000x64_0_0_1_1_n_n.lhsNonContracting by decide)]
  rfl
theorem x2_rhs0 (i : S8000x64.Idx) (q : dot_S400x8000_S400x64_S8000x64_0_0_1_1_n_n.contr.Idx) :
    (dot_S400x8000_S400x64_S8000x64_0_0_1_1_n_n.rhsIdx i q 0).val = (q ⟨0, by decide⟩).val :=
  dot_S400x8000_S400x64_S8000x64_0_0_1_1_n_n.rhsIdx_val_of_single rfl i q
theorem x2_rhs1 (i : S8000x64.Idx) (q : dot_S400x8000_S400x64_S8000x64_0_0_1_1_n_n.contr.Idx) :
    (dot_S400x8000_S400x64_S8000x64_0_0_1_1_n_n.rhsIdx i q 1).val = (i 1).val := by
  unfold DotDims.rhsIdx
  rw [dif_neg (show ¬(1 : Fin S400x64.rank) ∈ dot_S400x8000_S400x64_S8000x64_0_0_1_1_n_n.rhsBatch by decide), dif_pos (show (1 : Fin S400x64.rank) ∈ dot_S400x8000_S400x64_S8000x64_0_0_1_1_n_n.rhsNonContracting by decide)]
  rfl

/-- The block's product at (e, f): the sum over the block's 400 rows of the two blocks' entries in that row. -/
theorem x2_pay_apply (v0 : Vec Ideal S400x8000 .f32) (v2 : Vec Ideal S400x64 .f32) (e : Fin 8000) (f : Fin 64) :
    k1_pay1 (F := Ideal) v0 v2 (ix2 e f) = ∑ r : Fin 400, v0 (ix2 r e) * v2 (ix2 r f) := by
  unfold k1_pay1
  refine (Ideal.matmul_constant_zero_apply dot_S400x8000_S400x64_S8000x64_0_0_1_1_n_n none _ _ (ix2 e f)).trans ?_
  rw [← Equiv.sum_comp (ValueIdx.contrEquiv1 dot_S400x8000_S400x64_S8000x64_0_0_1_1_n_n 400 rfl rfl).symm]
  refine Finset.sum_congr rfl fun k _ => ?_
  have hk := ValueIdx.contrEquiv1_symm_val dot_S400x8000_S400x64_S8000x64_0_0_1_1_n_n 400 rfl rfl k
  have el : dot_S400x8000_S400x64_S8000x64_0_0_1_1_n_n.lhsIdx (ix2 e f) ((ValueIdx.contrEquiv1 dot_S400x8000_S400x64_S8000x64_0_0_1_1_n_n 400 rfl rfl).symm k) = ix2 k e := funext fun a => Fin.ext (by
    match a with
    | ⟨0, _⟩ => exact (x2_lhs0 _ _).trans hk
    | ⟨1, _⟩ => exact x2_lhs1 _ _)
  have er : dot_S400x8000_S400x64_S8000x64_0_0_1_1_n_n.rhsIdx (ix2 e f) ((ValueIdx.contrEquiv1 dot_S400x8000_S400x64_S8000x64_0_0_1_1_n_n 400 rfl rfl).symm k) = ix2 k f := funext fun a => Fin.ext (by
    match a with
    | ⟨0, _⟩ => exact (x2_rhs0 _ _).trans hk
    | ⟨1, _⟩ => exact x2_rhs1 _ _)
  rw [el, er]
  exact congrArg (fun z => v0 (ix2 k e) * z) (congrFun (shapeCast_self v2 shapeCasts_S400x64_S400x64) (ix2 k f))

/-- What the first point leaves at (e, f): the block's product. -/
theorem x2_accFirst_apply (x0 : Vec Ideal S400x8000 .f32) (x1 : Vec Ideal S400x64 .f32) (e : Fin 8000) (f : Fin 64) :
    accFirst (F := Ideal) x0 x1 (ix2 e f) = ∑ r : Fin 400, x0 (ix2 r e) * x1 (ix2 r f) := by
  unfold accFirst
  rw [View.canon_unit_zero x2_hz]
  simp only [View.ld_unit_zero (S := S400x8000) x2_hz, View.ld_unit_zero (S := S400x64) x2_hz]
  exact x2_pay_apply x0 x1 e f

/-- What a later point leaves at (e, f): the running sum plus the block's product. -/
theorem x2_accNext_apply (x0 : Vec Ideal S400x8000 .f32) (x1 : Vec Ideal S400x64 .f32) (acc : Vec Ideal S8000x64 .f32)
    (e : Fin 8000) (f : Fin 64) :
    accNext (F := Ideal) x0 x1 acc (ix2 e f) = acc (ix2 e f) + ∑ r : Fin 400, x0 (ix2 r e) * x1 (ix2 r f) := by
  unfold accNext
  rw [View.canon_unit_zero x2_hz]
  simp only [View.ld_unit_zero (S := S400x8000) x2_hz, View.ld_unit_zero (S := S400x64) x2_hz, View.ld_unit_zero (S := S8000x64) x2_hz]
  unfold k1_pay2
  refine (congrArg₂ (· + ·) (congrFun (shapeCast_self acc shapeCasts_S8000x64_S8000x64) (ix2 e f)) (x2_pay_apply x0 x1 e f))

/-! ## The blocks, read off the arrays -/

variable (V : (c : Dev nD) → (b : Ref sig .tc) → Buf (Elt Ideal) ((c : Thread nD τ).loc b))

/-- The block indices over the grid: at point t the two row-blocked windows are at row block t, column block 0, and the
    output window stays at block (0, 0). -/
theorem x2_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row r of block i is row 400 * i + r of the arrays. -/
def x2_row (i : ℕ) (hi : i < 50) (r : Fin 400) : Fin 20000 := ⟨400 * i + r.val, by have := r.isLt; omega⟩

/-- The product of the two arrays' entries in row m, at columns e and f. -/
def x2_term (c : Dev nD) (e : Fin 8000) (f : Fin 64) (m : Fin 20000) : EReal :=
  Cert.Spec.vec S20000x8000 (V c main_arg0) (ix2 m e) * Cert.Spec.vec S20000x64 (V c main_v11) (ix2 m f)

theorem x2_lt50 (t : Fin cfg1.N) : t.val < 50 := lt_of_lt_of_eq t.isLt (show cfg1.N = 50 from N_1)

/-- The incidence block at point t, row r, column e is the array's entry in row 400 * t + r. -/
theorem x2_blkH_apply (c : Dev nD) (t : Fin cfg1.N) (r : Fin 400) (e : Fin 8000) :
    (iblk1 V c 0 t : Vec Ideal S400x8000 .f32) (ix2 r e) = Cert.Spec.vec S20000x8000 (V c main_arg0) (ix2 (x2_row t.val (x2_lt50 t) r) e) := by
  obtain ⟨e0, e1, -⟩ := x2_idx t
  show V c main_arg0 (((cfg1.win 0).blk t).view.emb (ix2 r e)) = V c main_arg0 _
  refine congrArg (V c main_arg0) (funext fun a => Fin.ext ?_)
  match a with
  | ⟨0, _⟩ => show win1_0.index t (0 : Fin 2) * 400 + 1 * r.val = 400 * t.val + r.val; omega
  | ⟨1, _⟩ => show win1_0.index t (1 : Fin 2) * 8000 + 1 * e.val = e.val; omega

/-- The feature block at point t, row r, column f is the array's entry in row 400 * t + r. -/
theorem x2_blkX_apply (c : Dev nD) (t : Fin cfg1.N) (r : Fin 400) (f : Fin 64) :
    (iblk1 V c 1 t : Vec Ideal S400x64 .f32) (ix2 r f) = Cert.Spec.vec S20000x64 (V c main_v11) (ix2 (x2_row t.val (x2_lt50 t) r) f) := by
  obtain ⟨-, -, e0, e1, -⟩ := x2_idx t
  show V c main_v11 (((cfg1.win 1).blk t).view.emb (ix2 r f)) = V c main_v11 _
  refine congrArg (V c main_v11) (funext fun a => Fin.ext ?_)
  match a with
  | ⟨0, _⟩ => show win1_1.index t (0 : Fin 2) * 400 + 1 * r.val = 400 * t.val + r.val; omega
  | ⟨1, _⟩ => show win1_1.index t (1 : Fin 2) * 64 + 1 * f.val = f.val; omega

/-! ## The running sum: after point n, the sum of the products of blocks 0 … n -/

theorem x2_accAt_apply (c : Dev nD) : ∀ (n : ℕ) (hn : n < cfg1.N) (e : Fin 8000) (f : Fin 64),
    (accAt1 V c n hn : Vec Ideal S8000x64 .f32) (ix2 e f)
      = ∑ i : Fin (n + 1), ∑ r : Fin 400, x2_term V c e f (x2_row i.val (by have := i.isLt; have := x2_lt50 ⟨n, hn⟩; dsimp only at this; omega) r)
  | 0, hn, e, f => by
    refine (x2_accFirst_apply (iblk1 V c 0 ⟨0, hn⟩) (iblk1 V c 1 ⟨0, hn⟩) e f).trans ?_
    rw [Fin.sum_univ_castSucc (n := 0), Fin.sum_univ_zero, zero_add]
    refine Finset.sum_congr rfl fun r _ => ?_
    rw [x2_blkH_apply V c ⟨0, hn⟩ r e, x2_blkX_apply V c ⟨0, hn⟩ r f]
    rfl
  | n + 1, hn, e, f => by
    refine (x2_accNext_apply (iblk1 V c 0 ⟨n + 1, hn⟩) (iblk1 V c 1 ⟨n + 1, hn⟩) (accAt1 V c n (Nat.lt_of_succ_lt hn)) e f).trans ?_
    rw [x2_accAt_apply c n (Nat.lt_of_succ_lt hn) e f, Fin.sum_univ_castSucc (n := n + 1)]
    refine congrArg₂ (· + ·) rfl (Finset.sum_congr rfl fun r _ => ?_)
    rw [x2_blkH_apply V c ⟨n + 1, hn⟩ r e, x2_blkX_apply V c ⟨n + 1, hn⟩ r f]
    rfl

/-! ## Fifty blocks of 400 rows are the 20000 rows -/

/-- A block and a row inside it, as the row of the array. -/
def x2_rowEquiv : Fin 50 × Fin 400 ≃ Fin 20000 := finProdFinEquiv (m := 50) (n := 400)

theorem x2_rowEquiv_apply (i : Fin 50) (r : Fin 400) : x2_rowEquiv (i, r) = x2_row i.val i.isLt r :=
  Fin.ext (by show r.val + 400 * i.val = 400 * i.val + r.val; omega)

theorem x2_sum_blocks (g : Fin 20000 → EReal) (n : ℕ) (h : n + 1 = 50) :
    ∑ i : Fin (n + 1), ∑ r : Fin 400, g (x2_row i.val (by have := i.isLt; omega) r) = ∑ m : Fin 20000, g m := by
  obtain rfl : n = 49 := by omega
  rw [← Equiv.sum_comp x2_rowEquiv g, Fintype.sum_prod_type]
  refine Finset.sum_congr rfl fun i _ => Finset.sum_congr rfl fun r _ => ?_
  rw [x2_rowEquiv_apply]

/-! ## The array after the region -/

/-- The transposed product over the arrays as the region finds them: at (e, f) the sum over all rows n of
    H[n, e] * X1[n, f]. -/
def x2G (c : Dev nD) : S8000x64.Idx → EReal :=
  Cert.Spec.vec S8000x64 (fun i => ∑ n : Fin 20000, Cert.Spec.vec S20000x8000 (V c main_arg0) (ix2 n ⟨(i 0).val, (i 0).isLt⟩)
    * Cert.Spec.vec S20000x64 (V c main_v11) (ix2 n ⟨(i 1).val, (i 1).isLt⟩))

/-- After the last block the running sum is the sum over all rows. -/
theorem x2_accAt_last (c : Dev nD) (t : Fin cfg1.N) (h49 : t.val + 1 = 50) (e : Fin 8000) (f : Fin 64) :
    (accAt1 V c t.val t.isLt : Vec Ideal S8000x64 .f32) (ix2 e f) = x2G V c (ix2 e f) :=
  (x2_accAt_apply V c t.val t.isLt e f).trans (x2_sum_blocks (x2_term V c e f) t.val h49)

/-- The one write-back, after the last block, writes the whole array: block (0, 0) of the 8000 x 64 array is the array. -/
theorem x2_flushed (c : Dev nD) (t : Fin cfg1.N) (hf : (cfg1.win 2).flush t = true) :
    (dat1 V c).flushed 2 t = ((cfg1.win 2).blk t).view.read (Elt Ideal) (x2G V c) := by
  have h49 : t.val + 1 = 50 := by have := (flush1_2 t).mp hf; have := x2_lt50 t; omega
  obtain ⟨-, -, -, -, e0, e1⟩ := x2_idx t
  show (cfg1.win 2).cut (grid1.coords t) ((dat1 V c).after 2 t) = _
  rw [after1_2]
  funext j
  have hx : (win1_2.xinj (grid1.coords t) j : S8000x64.Idx) = ix2 ⟨(j 0).val, (j 0).isLt⟩ ⟨(j 1).val, (j 1).isLt⟩ :=
    funext fun a => by match a with | ⟨0, _⟩ => rfl | ⟨1, _⟩ => rfl
  have hy : (((cfg1.win 2).blk t).view.emb j : S8000x64.Idx) = ix2 ⟨(j 0).val, (j 0).isLt⟩ ⟨(j 1).val, (j 1).isLt⟩ :=
    funext fun a => Fin.ext (by
      match a with
      | ⟨0, _⟩ => show win1_2.index t (0 : Fin 2) * 8000 + 1 * (j 0).val = (j 0).val; omega
      | ⟨1, _⟩ => show win1_2.index t (1 : Fin 2) * 64 + 1 * (j 1).val = (j 1).val; omega)
  rw [View.read_apply, hy]
  show (accAt1 V c t.val t.isLt : Vec Ideal S8000x64 .f32) (win1_2.xinj (grid1.coords t) j) = _
  rw [hx]
  exact (x2_accAt_last V c t h49 _ _).trans (cast_eq _ _).symm

theorem x2_mem_blk (t : Fin cfg1.N) (i : S8000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v12).slice (win1_2.rect t)).set ↔ _
  rw [View.set_slice_whole, Rect.mem_set_unit]
  exact Iff.rfl

/-- The last point. -/
def x2_tLast : Fin cfg1.N := ⟨49, by rw [show cfg1.N = 50 from N_1]; decide⟩

/-- The array of the transposed product after the region: at (e, f) the sum over all 20000 rows n of H[n, e] * X1[n, f]. -/
theorem x2_arr (c : Dev nD) : (dat1 V c).arrAt 2 cfg1.N = Cert.Spec.vec S8000x64 (fun i => ∑ n : Fin 20000, Cert.Spec.vec S20000x8000 (V c main_arg0) (ix2 n ⟨(i 0).val, (i 0).isLt⟩) * Cert.Spec.vec S20000x64 (V c main_v11) (ix2 n ⟨(i 1).val, (i 1).isLt⟩)) :=
  (dat1 V c).arrAt_eq_of_cover 2 (x2G V c) (x2_flushed V c) fun i =>
    ⟨x2_tLast, (flush1_2 x2_tLast).mpr rfl, by
      obtain ⟨-, -, -, -, e0, e1⟩ := x2_idx x2_tLast
      rw [x2_mem_blk]
      intro a
      have h0 : (i 0 : Nat) < 8000 := (i 0).isLt
      have h1 : (i 1 : Nat) < 64 := (i 1).isLt
      match a with
      | ⟨0, _⟩ => show win1_2.index x2_tLast (0 : Fin 2) * 8000 ≤ (i 0 : Nat) ∧ (i 0 : Nat) < win1_2.index x2_tLast (0 : Fin 2) * 8000 + 8000; omega
      | ⟨1, _⟩ => show win1_2.index x2_tLast (1 : Fin 2) * 64 ≤ (i 1 : Nat) ∧ (i 1 : Nat) < win1_2.index x2_tLast (1 : Fin 2) * 64 + 64; omega⟩

end Cert.KernelIdeal.Val

end
-- ==== Proof.KI.Val2.lean ====
/-
  Region 2's value: the result array after the 50 write-backs.

  Grid point `t` multiplies rows `400 t … 400 t + 399` of the incidence array (400 by 8000) with the whole
  8000 by 64 operand and writes the 400 by 64 product back as row block `t` of the result. An entry of the
  block product is the sum over the 8000 hyperedges of the row's entry times the operand's entry (a matrix
  product into a zero accumulator; narrowing the operands' format does nothing to an extended real, and the
  reshape to the same shape is the identity). Row `r` of block `t` is row `400 t + r` of the array, the
  operand's block is the operand at every point, and row `n` of the result lies in block `n / 400`, so the
  50 blocks tile the result, which therefore holds
  `out n f = sum over e of H n e * B e f` at every index.
-/
import proofs.«132042_j80255758893061_1_alg».proof.Proof.KI.Reg2
import proofs.«132042_j80255758893061_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The product's axes -/

theorem x4_lhs0 (i : S400x64.Idx) (q : dot_S400x8000_S8000x64_S400x64_1_0_0_1_n_n.contr.Idx) :
    (dot_S400x8000_S8000x64_S400x64_1_0_0_1_n_n.lhsIdx i q 0).val = (i 0).val := by
  unfold DotDims.lhsIdx
  rw [dif_neg (show ¬(0 : Fin S400x8000.rank) ∈ dot_S400x8000_S8000x64_S400x64_1_0_0_1_n_n.lhsBatch by decide), dif_pos (show (0 : Fin S400x8000.rank) ∈ dot_S400x8000_S8000x64_S400x64_1_0_0_1_n_n.lhsNonContracting by decide)]
  rfl
theorem x4_lhs1 (i : S400x64.Idx) (q : dot_S400x8000_S8000x64_S400x64_1_0_0_1_n_n.contr.Idx) :
    (dot_S400x8000_S8000x64_S400x64_1_0_0_1_n_n.lhsIdx i q 1).val = (q ⟨0, by decide⟩).val :=
  dot_S400x8000_S8000x64_S400x64_1_0_0_1_n_n.lhsIdx_val_of_single rfl i q
theorem x4_rhs0 (i : S400x64.Idx) (q : dot_S400x8000_S8000x64_S400x64_1_0_0_1_n_n.contr.Idx) :
    (dot_S400x8000_S8000x64_S400x64_1_0_0_1_n_n.rhsIdx i q 0).val = (q ⟨0, by decide⟩).val :=
  dot_S400x8000_S8000x64_S400x64_1_0_0_1_n_n.rhsIdx_val_of_single rfl i q
theorem x4_rhs1 (i : S400x64.Idx) (q : dot_S400x8000_S8000x64_S400x64_1_0_0_1_n_n.contr.Idx) :
    (dot_S400x8000_S8000x64_S400x64_1_0_0_1_n_n.rhsIdx i q 1).val = (i 1).val := by
  unfold DotDims.rhsIdx
  rw [dif_neg (show ¬(1 : Fin S8000x64.rank) ∈ dot_S400x8000_S8000x64_S400x64_1_0_0_1_n_n.rhsBatch by decide), dif_pos (show (1 : Fin S8000x64.rank) ∈ dot_S400x8000_S8000x64_S400x64_1_0_0_1_n_n.rhsNonContracting by decide)]
  rfl

/-- The block product at an index: the sum over the 8000 columns of the row block times the operand. -/
theorem x4_pay_apply (v0 : Vec Ideal S400x8000 .f32) (v2 : Vec Ideal S8000x64 .f32) (r : Fin 400) (f : Fin 64) :
    k2_pay1 (F := Ideal) v0 v2 (ix2 r f) = ∑ e : Fin 8000, v0 (ix2 r e) * v2 (ix2 e f) := by
  unfold k2_pay1
  refine (Ideal.matmul_constant_zero_apply dot_S400x8000_S8000x64_S400x64_1_0_0_1_n_n none _ _ (ix2 r f)).trans ?_
  rw [← Equiv.sum_comp (ValueIdx.contrEquiv1 dot_S400x8000_S8000x64_S400x64_1_0_0_1_n_n 8000 rfl rfl).symm]
  refine Finset.sum_congr rfl fun k _ => ?_
  have hk := ValueIdx.contrEquiv1_symm_val dot_S400x8000_S8000x64_S400x64_1_0_0_1_n_n 8000 rfl rfl k
  have el : dot_S400x8000_S8000x64_S400x64_1_0_0_1_n_n.lhsIdx (ix2 r f) ((ValueIdx.contrEquiv1 dot_S400x8000_S8000x64_S400x64_1_0_0_1_n_n 8000 rfl rfl).symm k) = ix2 r k := funext fun a => Fin.ext (by
    match a with
    | ⟨0, _⟩ => exact x4_lhs0 _ _
    | ⟨1, _⟩ => exact (x4_lhs1 _ _).trans hk)
  have er : dot_S400x8000_S8000x64_S400x64_1_0_0_1_n_n.rhsIdx (ix2 r f) ((ValueIdx.contrEquiv1 dot_S400x8000_S8000x64_S400x64_1_0_0_1_n_n 8000 rfl rfl).symm k) = ix2 k f := funext fun a => Fin.ext (by
    match a with
    | ⟨0, _⟩ => exact (x4_rhs0 _ _).trans hk
    | ⟨1, _⟩ => exact x4_rhs1 _ _)
  rw [el, er]
  exact congrArg (v0 (ix2 r k) * ·) (congrFun (shapeCast_self v2 shapeCasts_S8000x64_S8000x64) (ix2 k f))

variable (V : (c : Dev nD) → (b : Ref sig .tc) → Buf (Elt Ideal) ((c : Thread nD τ).loc b))

/-! ## The body's result at an index -/

theorem x4_hz : (![0, 0] : Fin 2 → Nat) = fun _ => 0 := funext fun a => by fin_cases a <;> rfl

/-- What the body leaves in the output window's buffer, at row `r` and feature `f` of the block. -/
theorem x4_prodOut_apply (x0 : Vec Ideal S400x8000 .f32) (x1 : Vec Ideal S8000x64 .f32) (r : Fin 400) (f : Fin 64) :
    prodOut (F := Ideal) x0 x1 (ix2 r f) = ∑ e : Fin 8000, x0 (ix2 r e) * x1 (ix2 e f) := by
  unfold prodOut
  rw [View.canon_unit_zero x4_hz]
  simp only [View.ld_unit_zero (S := S400x8000) x4_hz, View.ld_unit_zero (S := S8000x64) x4_hz]
  exact x4_pay_apply x0 x1 r f

/-! ## The input blocks as parts of their arrays -/

/-- The block index of each window at each grid point: the row-blocked windows move with the point, the
    operand's window stays at the whole array. -/
theorem x4_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of block `t` of the incidence array is its row `400 t + r`. -/
theorem x4_blkH_apply (c : Dev nD) (t : Fin cfg2.N) (r : Fin 400) (e : Fin 8000) (n : Fin 20000) (hn : n.val = t.val * 400 + r.val) :
    (iblk2 V c 0 t : Vec Ideal S400x8000 .f32) (ix2 r e) = (V c main_arg0 : S20000x8000.Idx → EReal) (ix2 n e) := by
  obtain ⟨h0, h1, -⟩ := x4_idx t
  unfold iblk2
  rw [View.read_apply]
  show (V c main_arg0 : S20000x8000.Idx → EReal) _ = _
  congr 1
  funext a
  apply Fin.ext
  match a with
  | ⟨0, _⟩ => show win2_0.index t 0 * 400 + 1 * r.val = n.val; rw [h0, hn]; omega
  | ⟨1, _⟩ => show win2_0.index t 1 * 8000 + 1 * e.val = e.val; rw [h1]; omega

/-- The operand's block is the whole operand at every point. -/
theorem x4_blkB_apply (c : Dev nD) (t : Fin cfg2.N) (e : Fin 8000) (f : Fin 64) :
    (iblk2 V c 1 t : Vec Ideal S8000x64 .f32) (ix2 e f) = (V c main_v15 : S8000x64.Idx → EReal) (ix2 e f) := by
  obtain ⟨-, -, h0, h1, -⟩ := x4_idx t
  unfold iblk2
  rw [View.read_apply]
  show (V c main_v15 : S8000x64.Idx → EReal) _ = _
  congr 1
  funext a
  apply Fin.ext
  match a with
  | ⟨0, _⟩ => show win2_1.index t 0 * 8000 + 1 * e.val = e.val; rw [h0]; omega
  | ⟨1, _⟩ => show win2_1.index t 1 * 64 + 1 * f.val = f.val; rw [h1]; omega

/-! ## From the blocks to the array -/

/-- What point `t` leaves in the output window's buffer is block `t` of the product, index by index. -/
theorem x4_point (c : Dev nD) (t : Fin cfg2.N) (j : S400x64.Idx) (i : S20000x64.Idx)
    (h0 : (i 0).val = t.val * 400 + (j 0).val) (h1 : (i 1).val = (j 1).val) :
    prodOut (F := Ideal) (iblk2 V c 0 t) (iblk2 V c 1 t) j
      = ∑ e : Fin 8000, Cert.Spec.vec S20000x8000 (V c main_arg0) (ix2 ⟨(i 0).val, (i 0).isLt⟩ e) * Cert.Spec.vec S8000x64 (V c main_v15) (ix2 e ⟨(i 1).val, (i 1).isLt⟩) := by
  obtain ⟨r, f, rfl⟩ : ∃ (r : Fin 400) (f : Fin 64), j = ix2 r f := ⟨j 0, j 1, eq_ix2 j⟩
  refine (x4_prodOut_apply (iblk2 V c 0 t) (iblk2 V c 1 t) r f).trans ?_
  refine Finset.sum_congr rfl fun e _ => ?_
  have e1 : (⟨(i 1).val, (i 1).isLt⟩ : Fin 64) = f := Fin.ext h1
  rw [e1]
  exact congrArg₂ (· * ·) (x4_blkH_apply V c t r e ⟨(i 0).val, (i 0).isLt⟩ h0) (x4_blkB_apply V c t e f)

/-- An index of the result array is in point `t`'s block iff each coordinate is in the block's range. -/
theorem x4_mem_blk (t : Fin cfg2.N) (i : S20000x64.Idx) :
    i ∈ ((cfg2.win 2).blk t).view.set ↔ ∀ a : Fin 2, win2_2.index t a * S400x64.size a ≤ (i a).val ∧ (i a).val < win2_2.index t a * S400x64.size a + S400x64.size a := by
  show i ∈ ((View.whole main_v16).slice (win2_2.rect t)).set ↔ _
  rw [View.set_slice_whole, Rect.mem_set_unit]
  exact Iff.rfl

/-- Point `t` writes back block `t` of the product of the incidence array with the operand. -/
theorem x4_flushed (c : Dev nD) (t : Fin cfg2.N) :
    (dat2 V c).flushed 2 t = ((cfg2.win 2).blk t).view.read (Elt Ideal)
      (Cert.Spec.vec S20000x64 (fun i => ∑ e : Fin 8000, Cert.Spec.vec S20000x8000 (V c main_arg0) (ix2 ⟨(i 0).val, (i 0).isLt⟩ e) * Cert.Spec.vec S8000x64 (V c main_v15) (ix2 e ⟨(i 1).val, (i 1).isLt⟩))) := by
  show (cfg2.win 2).cut (grid2.coords t) ((dat2 V c).after 2 t) = _
  rw [after2_2]
  obtain ⟨-, -, -, -, h0, h1⟩ := x4_idx t
  funext j
  refine x4_point V c t j (((cfg2.win 2).blk t).view.emb j) ?_ ?_
  · show win2_2.index t 0 * 400 + 1 * (j 0).val = t.val * 400 + (j 0).val
    rw [h0]; omega
  · show win2_2.index t 1 * 64 + 1 * (j 1).val = (j 1).val
    rw [h1]; omega

/-- The 50 row blocks tile the result array: row `n` is in block `n / 400`. -/
theorem x4_cover (i : S20000x64.Idx) : ∃ t : Fin cfg2.N, (cfg2.win 2).flush t = true ∧ i ∈ ((cfg2.win 2).blk t).view.set := by
  have hN : cfg2.N = 50 := N_2
  have hi0 : (i 0).val < 20000 := (i 0).isLt
  have hi1 : (i 1).val < 64 := (i 1).isLt
  refine ⟨⟨(i 0).val / 400, by rw [hN]; omega⟩, flush2_2 _, ?_⟩
  rw [x4_mem_blk]
  obtain ⟨-, -, -, -, h0, h1⟩ := x4_idx ⟨(i 0).val / 400, by rw [hN]; omega⟩
  intro a
  match a with
  | ⟨0, _⟩ => show win2_2.index _ (0 : Fin 2) * 400 ≤ (i 0).val ∧ (i 0).val < win2_2.index _ (0 : Fin 2) * 400 + 400; rw [h0]; show (i 0).val / 400 * 400 ≤ (i 0).val ∧ (i 0).val < (i 0).val / 400 * 400 + 400; omega
  | ⟨1, _⟩ => show win2_2.index _ (1 : Fin 2) * 64 ≤ (i 1).val ∧ (i 1).val < win2_2.index _ (1 : Fin 2) * 64 + 64; rw [h1]; omega

/-- The result array after the region: the product of the incidence array with the operand, index by index. -/
theorem x4_arr (c : Dev nD) : (dat2 V c).arrAt 2 cfg2.N
    = Cert.Spec.vec S20000x64 (fun i => ∑ e : Fin 8000, Cert.Spec.vec S20000x8000 (V c main_arg0) (ix2 ⟨(i 0).val, (i 0).isLt⟩ e) * Cert.Spec.vec S8000x64 (V c main_v15) (ix2 e ⟨(i 1).val, (i 1).isLt⟩)) :=
  (dat2 V c).arrAt_eq_of_cover 2 _ (fun t _ => x4_flushed V c t) x4_cover

end Cert.KernelIdeal.Val

end
-- ==== Proof.KI.ValHost.lean ====
/-
  The host operations between the three regions, read entry by entry over the extended reals.

  Between the first and the second region the program forms, from the row sums `dv` (a column, 20000 by 1) and the
  column sums `de` (a row, 1 by 8000), the node factor `1 / sqrt (dv + eps)`, the hyperedge factor `1 / (de + eps)`,
  and the features scaled by the node factor, `X n f * (1 / sqrt (dv n + eps))`. Between the second and the third it
  turns the hyperedge factor from a row into a column and scales by it; after the third it scales by the node factor
  again. Each statement is for arbitrary contents of the buffers the operations read.
-/
import proofs.«132042_j80255758893061_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import proofs.«132042_j80255758893061_1_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx
open Cert.Spec (vec)

variable (Wv : Valuation τ sig (Elt Ideal))

/-! ## The single operations at an index -/

/-- A scalar literal spread over the column shape is that literal at every index. -/
theorem lit_col (w : BitVec 32) (i : S20000x1.Idx) :
    vec S20000x1 (broadcastInDim S20000x1 ![] bcast_S_S20000x1 (constant (F := Ideal) S_ .f32 w)) i = Ideal.ofBits .f32 w :=
  broadcastInDim_apply _ bcast_S_S20000x1 _ i (fun a => a.elim0) (fun a => a.elim0)

/-- The same over the row shape. -/
theorem lit_row (w : BitVec 32) (i : S1x8000.Idx) :
    vec S1x8000 (broadcastInDim S1x8000 ![] bcast_S_S1x8000 (constant (F := Ideal) S_ .f32 w)) i = Ideal.ofBits .f32 w :=
  broadcastInDim_apply _ bcast_S_S1x8000 _ i (fun a => a.elim0) (fun a => a.elim0)

/-- `1 / sqrt (v + eps)` entry by entry over the column shape. -/
theorem inv_sqrt_col (v : S20000x1.Idx → EReal) (j : S20000x1.Idx) :
    vec S20000x1 (Host.divf (F := Ideal) (broadcastInDim S20000x1 ![] bcast_S_S20000x1 (constant (F := Ideal) S_ .f32 0x3F800000#32))
      (Host.sqrt (F := Ideal) (addf v (broadcastInDim S20000x1 ![] bcast_S_S20000x1 (constant (F := Ideal) S_ .f32 0x2EDBE6FF#32))))) j
      = Ideal.div Cert.Spec.one (Ideal.sqrt (v j + Cert.Spec.eps)) := by
  show Ideal.div (vec S20000x1 (broadcastInDim S20000x1 ![] bcast_S_S20000x1 (constant (F := Ideal) S_ .f32 0x3F800000#32)) j)
      (Ideal.sqrt (v j + vec S20000x1 (broadcastInDim S20000x1 ![] bcast_S_S20000x1 (constant (F := Ideal) S_ .f32 0x2EDBE6FF#32)) j)) = _
  rw [lit_col, lit_col]

/-- `1 / (v + eps)` entry by entry over the row shape. -/
theorem inv_row (v : S1x8000.Idx → EReal) (j : S1x8000.Idx) :
    vec S1x8000 (Host.divf (F := Ideal) (broadcastInDim S1x8000 ![] bcast_S_S1x8000 (constant (F := Ideal) S_ .f32 0x3F800000#32))
      (addf v (broadcastInDim S1x8000 ![] bcast_S_S1x8000 (constant (F := Ideal) S_ .f32 0x2EDBE6FF#32)))) j
      = Ideal.div Cert.Spec.one (v j + Cert.Spec.eps) := by
  show Ideal.div (vec S1x8000 (broadcastInDim S1x8000 ![] bcast_S_S1x8000 (constant (F := Ideal) S_ .f32 0x3F800000#32)) j)
      (v j + vec S1x8000 (broadcastInDim S1x8000 ![] bcast_S_S1x8000 (constant (F := Ideal) S_ .f32 0x2EDBE6FF#32)) j) = _
  rw [lit_row, lit_row]

/-- A column of 20000 entries spread along the second axis: entry `(n, f)` is the column's entry `n`. -/
theorem col_spread (v : S20000x1.Idx → EReal) (i : S20000x64.Idx) :
    vec S20000x64 (broadcastInDim S20000x64 ![0, 1] bcast_S20000x1_S20000x64_0_1 v) i = v (ix2 ⟨(i 0).val, (i 0).isLt⟩ (0 : Fin 1)) :=
  broadcastInDim_apply _ bcast_S20000x1_S20000x64_0_1 v i (ix2 ⟨(i 0).val, (i 0).isLt⟩ (0 : Fin 1)) (fun a => match a with
    | ⟨0, _⟩ => by show (i 0).val = if (20000 : Nat) = 1 then 0 else (i 0).val; rw [if_neg (by decide)]
    | ⟨1, _⟩ => by show 0 = if (1 : Nat) = 1 then 0 else (i 1).val; rw [if_pos rfl])

/-- A column of 8000 entries spread along the second axis. -/
theorem col_spread' (v : S8000x1.Idx → EReal) (i : S8000x64.Idx) :
    vec S8000x64 (broadcastInDim S8000x64 ![0, 1] bcast_S8000x1_S8000x64_0_1 v) i = v (ix2 ⟨(i 0).val, (i 0).isLt⟩ (0 : Fin 1)) :=
  broadcastInDim_apply _ bcast_S8000x1_S8000x64_0_1 v i (ix2 ⟨(i 0).val, (i 0).isLt⟩ (0 : Fin 1)) (fun a => match a with
    | ⟨0, _⟩ => by show (i 0).val = if (8000 : Nat) = 1 then 0 else (i 0).val; rw [if_neg (by decide)]
    | ⟨1, _⟩ => by show 0 = if (1 : Nat) = 1 then 0 else (i 1).val; rw [if_pos rfl])

/-- A row of 8000 entries laid out as a column: entry `(e, 0)` of the column is entry `(0, e)` of the row. -/
theorem row_as_col (v : S1x8000.Idx → EReal) (e : Fin 8000) :
    vec S8000x1 (shapeCast S8000x1 v shapeCasts_S1x8000_S8000x1) (ix2 e (0 : Fin 1)) = v (ix2 (0 : Fin 1) e) :=
  shapeCast_apply v shapeCasts_S1x8000_S8000x1 _ _ (by
    rw [Shape.rowMajor_val_two, Shape.rowMajor_val_two]
    show 0 * 8000 + e.val = e.val * 1 + 0
    omega)

/-! ## The first stretch: the two factors and the scaled features -/

/-- The node factor's buffer after the first stretch, as one term over the row sums' buffer. -/
theorem host1_a_term : StableHlo.after (hostOps1 (F := Ideal)) Wv (Proc.devRef .tc main_v5) =
    Host.divf (F := Ideal) (broadcastInDim S20000x1 ![] bcast_S_S20000x1 (constant (F := Ideal) S_ .f32 0x3F800000#32))
      (Host.sqrt (F := Ideal)
        (addf (Wv (Proc.devRef .tc main_v0_0))
          (broadcastInDim S20000x1 ![] bcast_S_S20000x1 (constant (F := Ideal) S_ .f32 0x2EDBE6FF#32)))) := by
  after_results

/-- The node factor: `1 / sqrt (dv + eps)` at every node. -/
theorem host1_a (i : S20000x1.Idx) :
    vec S20000x1 (StableHlo.after (hostOps1 (F := Ideal)) Wv (Proc.devRef .tc main_v5)) i
      = Ideal.div Cert.Spec.one (Ideal.sqrt (vec S20000x1 (Wv (Proc.devRef .tc main_v0_0)) i + Cert.Spec.eps)) :=
  (congrFun (host1_a_term Wv) i).trans (inv_sqrt_col (Wv (Proc.devRef .tc main_v0_0)) i)

/-- The hyperedge factor's buffer after the first stretch, as one term over the column sums' buffer. -/
theorem host1_b_term : StableHlo.after (hostOps1 (F := Ideal)) Wv (Proc.devRef .tc main_v9) =
    Host.divf (F := Ideal) (broadcastInDim S1x8000 ![] bcast_S_S1x8000 (constant (F := Ideal) S_ .f32 0x3F800000#32))
      (addf (Wv (Proc.devRef .tc main_v0_1))
        (broadcastInDim S1x8000 ![] bcast_S_S1x8000 (constant (F := Ideal) S_ .f32 0x2EDBE6FF#32))) := by
  after_results

/-- The hyperedge factor: `1 / (de + eps)` at every hyperedge. -/
theorem host1_b (i : S1x8000.Idx) :
    vec S1x8000 (StableHlo.after (hostOps1 (F := Ideal)) Wv (Proc.devRef .tc main_v9)) i
      = Ideal.div Cert.Spec.one (vec S1x8000 (Wv (Proc.devRef .tc main_v0_1)) i + Cert.Spec.eps) :=
  (congrFun (host1_b_term Wv) i).trans (inv_row (Wv (Proc.devRef .tc main_v0_1)) i)

/-- The scaled features' buffer after the first stretch, as one term over the features' and the row sums' buffers. -/
theorem host1_x1_term : StableHlo.after (hostOps1 (F := Ideal)) Wv (Proc.devRef .tc main_v11) =
    mulf (F := Ideal) (s := S20000x64) (φ := .f32) (Wv (Proc.devRef .tc main_arg1))
      (broadcastInDim S20000x64 ![0, 1] bcast_S20000x1_S20000x64_0_1
        (Host.divf (F := Ideal) (broadcastInDim S20000x1 ![] bcast_S_S20000x1 (constant (F := Ideal) S_ .f32 0x3F800000#32))
          (Host.sqrt (F := Ideal)
            (addf (Wv (Proc.devRef .tc main_v0_0))
              (broadcastInDim S20000x1 ![] bcast_S_S20000x1 (constant (F := Ideal) S_ .f32 0x2EDBE6FF#32)))))) := by
  after_results

/-- The scaled features: `X n f * (1 / sqrt (dv n + eps))`. -/
theorem host1_x1 (i : S20000x64.Idx) :
    vec S20000x64 (StableHlo.after (hostOps1 (F := Ideal)) Wv (Proc.devRef .tc main_v11)) i
      = vec S20000x64 (Wv (Proc.devRef .tc main_arg1)) i
        * Ideal.div Cert.Spec.one (Ideal.sqrt (vec S20000x1 (Wv (Proc.devRef .tc main_v0_0)) (ix2 ⟨(i 0).val, (i 0).isLt⟩ (0 : Fin 1)) + Cert.Spec.eps)) := by
  refine (congrFun (host1_x1_term Wv) i).trans ?_
  show vec S20000x64 (Wv (Proc.devRef .tc main_arg1)) i
      * vec S20000x64 (broadcastInDim S20000x64 ![0, 1] bcast_S20000x1_S20000x64_0_1
          (Host.divf (F := Ideal) (broadcastInDim S20000x1 ![] bcast_S_S20000x1 (constant (F := Ideal) S_ .f32 0x3F800000#32))
            (Host.sqrt (F := Ideal)
              (addf (Wv (Proc.devRef .tc main_v0_0))
                (broadcastInDim S20000x1 ![] bcast_S_S20000x1 (constant (F := Ideal) S_ .f32 0x2EDBE6FF#32)))))) i = _
  rw [col_spread]
  exact congrArg (vec S20000x64 (Wv (Proc.devRef .tc main_arg1)) i * ·) (inv_sqrt_col (Wv (Proc.devRef .tc main_v0_0)) _)

/-! ## The second stretch: scaling by the hyperedge factor -/

/-- The buffer after the second stretch, as one term over the second region's result and the hyperedge factor. -/
theorem host2_x3_term : StableHlo.after (hostOps2 (F := Ideal)) Wv (Proc.devRef .tc main_v15) =
    mulf (F := Ideal) (s := S8000x64) (φ := .f32) (Wv (Proc.devRef .tc main_v12))
      (broadcastInDim S8000x64 ![0, 1] bcast_S8000x1_S8000x64_0_1
        (shapeCast S8000x1 (Wv (Proc.devRef .tc main_v9)) shapeCasts_S1x8000_S8000x1)) := by
  after_results
  rfl

/-- Entry `(e, f)` of the second region's result times the hyperedge factor at `e`. -/
theorem host2_x3 (i : S8000x64.Idx) :
    vec S8000x64 (StableHlo.after (hostOps2 (F := Ideal)) Wv (Proc.devRef .tc main_v15)) i
      = vec S8000x64 (Wv (Proc.devRef .tc main_v12)) i
        * vec S1x8000 (Wv (Proc.devRef .tc main_v9)) (ix2 (0 : Fin 1) ⟨(i 0).val, (i 0).isLt⟩) := by
  refine (congrFun (host2_x3_term Wv) i).trans ?_
  show vec S8000x64 (Wv (Proc.devRef .tc main_v12)) i
      * vec S8000x64 (broadcastInDim S8000x64 ![0, 1] bcast_S8000x1_S8000x64_0_1
          (shapeCast S8000x1 (Wv (Proc.devRef .tc main_v9)) shapeCasts_S1x8000_S8000x1)) i = _
  rw [col_spread']
  exact congrArg (vec S8000x64 (Wv (Proc.devRef .tc main_v12)) i * ·) (row_as_col (Wv (Proc.devRef .tc main_v9)) _)

/-! ## The third stretch: scaling by the node factor -/

/-- The result's buffer after the third stretch, as one term over the third region's result and the node factor. -/
theorem host3_out_term : StableHlo.after (hostOps3 (F := Ideal)) Wv (Proc.devRef .tc main_v18) =
    mulf (F := Ideal) (s := S20000x64) (φ := .f32) (Wv (Proc.devRef .tc main_v16))
      (broadcastInDim S20000x64 ![0, 1] bcast_S20000x1_S20000x64_0_1 (Wv (Proc.devRef .tc main_v5))) := by
  after_results

/-- Entry `(n, f)` of the third region's result times the node factor at `n`. -/
theorem host3_out (i : S20000x64.Idx) :
    vec S20000x64 (StableHlo.after (hostOps3 (F := Ideal)) Wv (Proc.devRef .tc main_v18)) i
      = vec S20000x64 (Wv (Proc.devRef .tc main_v16)) i
        * vec S20000x1 (Wv (Proc.devRef .tc main_v5)) (ix2 ⟨(i 0).val, (i 0).isLt⟩ (0 : Fin 1)) := by
  refine (congrFun (host3_out_term Wv) i).trans ?_
  show vec S20000x64 (Wv (Proc.devRef .tc main_v16)) i
      * vec S20000x64 (broadcastInDim S20000x64 ![0, 1] bcast_S20000x1_S20000x64_0_1 (Wv (Proc.devRef .tc main_v5))) i = _
  rw [col_spread]

end Cert.KernelIdeal.Val

end
-- ==== Proof.KI.Final.lean ====
/-
  The kernel's result array as one function of its two argument arrays: the buffers' contents followed through the
  program's boundaries — the degree arrays after region 0, the two factors and the scaled features after the first host
  operations, the transposed product after region 1, its scaling, the product after region 2 and the last scaling —
  each read at an index and recognised as the specification's stage.
-/
import proofs.«132042_j80255758893061_1_alg».proof.Proof.KI.Fold
import proofs.«132042_j80255758893061_1_alg».proof.Proof.KI.Val0
import proofs.«132042_j80255758893061_1_alg».proof.Proof.KI.Val1
import proofs.«132042_j80255758893061_1_alg».proof.Proof.KI.Val2
import proofs.«132042_j80255758893061_1_alg».proof.Proof.KI.ValHost
import proofs.«132042_j80255758893061_1_alg».proof.Proof.Spec
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg) (c : Dev nD)

open Idealize.ShloMosaic.ValueIdx Cert.Spec

/-- The two argument arrays on core `c`. -/
abbrev Hm : Cert.Spec.SH.Idx → EReal := m ((c : Thread nD τ).loc main_arg0)
abbrev Xm : Cert.Spec.SX.Idx → EReal := m ((c : Thread nD τ).loc main_arg1)

/-! ## The incidence array is the same at every boundary -/

theorem w1_H : W1 m ρ c (Proc.devRef .tc main_arg0) = Hm m c :=
  (W1_arr m ρ c 0).trans (((dat0 (E0 m ρ) c).arrAt_in 0 rfl _).trans (A_eq0 (E0 m ρ) c 0))
theorem w2_H : W2 m ρ c (Proc.devRef .tc main_arg0) = Hm m c :=
  (StableHlo.after_of_writes_sub hostOps1 _ hostOps1_writes (by decide)).trans (w1_H m ρ c)
theorem w3_H : W3 m ρ c (Proc.devRef .tc main_arg0) = Hm m c :=
  ((W3_arr m ρ c 0).trans (((dat1 (E2 m ρ) c).arrAt_in 0 rfl _).trans (A_eq1 (E2 m ρ) c 0))).trans (w2_H m ρ c)
theorem w4_H : W4 m ρ c (Proc.devRef .tc main_arg0) = Hm m c :=
  (StableHlo.after_of_writes_sub hostOps2 _ hostOps2_writes (by decide)).trans (w3_H m ρ c)
theorem w1_X : W1 m ρ c (Proc.devRef .tc main_arg1) = Xm m c := W1_of_ne m ρ c main_arg1 (by decide)

/-! ## After region 0: the two degree arrays -/

theorem w1_dv : W1 m ρ c (Proc.devRef .tc main_v0_0) = vec S20000x1 (fun i => Cert.Spec.dv (Hm m c) ⟨(i 0).val, (i 0).isLt⟩) :=
  (W1_arr m ρ c 1).trans (dv_arr (E0 m ρ) c)
theorem w1_de : W1 m ρ c (Proc.devRef .tc main_v0_1) = vec S1x8000 (fun i => Cert.Spec.de (Hm m c) ⟨(i 1).val, (i 1).isLt⟩) :=
  (W1_arr m ρ c 2).trans (de_arr (E0 m ρ) c)

/-! ## After the first host operations: the two factors and the scaled features -/

theorem w2_a (i : S20000x1.Idx) : vec S20000x1 (W2 m ρ c (Proc.devRef .tc main_v5)) i = Cert.Spec.a (Hm m c) ⟨(i 0).val, (i 0).isLt⟩ := by
  rw [show W2 m ρ c = StableHlo.after hostOps1 (W1 m ρ c) from rfl, host1_a, w1_dv]; rfl
theorem w2_b (i : S1x8000.Idx) : vec S1x8000 (W2 m ρ c (Proc.devRef .tc main_v9)) i = Cert.Spec.b (Hm m c) ⟨(i 1).val, (i 1).isLt⟩ := by
  rw [show W2 m ρ c = StableHlo.after hostOps1 (W1 m ρ c) from rfl, host1_b, w1_de]; rfl
theorem w2_x1 (n : Fin 20000) (f : Fin 64) : vec S20000x64 (W2 m ρ c (Proc.devRef .tc main_v11)) (ix2 n f) = Cert.Spec.x1 (Hm m c) (Xm m c) n f := by
  rw [show W2 m ρ c = StableHlo.after hostOps1 (W1 m ρ c) from rfl, host1_x1, w1_dv, w1_X]; rfl

/-! ## After region 1: the transposed product -/

theorem w3_x2 : W3 m ρ c (Proc.devRef .tc main_v12) = vec S8000x64 (fun i => Cert.Spec.x2 (Hm m c) (Xm m c) ⟨(i 0).val, (i 0).isLt⟩ ⟨(i 1).val, (i 1).isLt⟩) := by
  refine ((W3_arr m ρ c 2).trans (x2_arr (E2 m ρ) c)).trans ?_
  funext i
  unfold Cert.Spec.x2
  refine Finset.sum_congr rfl fun n _ => ?_
  rw [show E2 m ρ c main_arg0 = Hm m c from w2_H m ρ c]
  exact congrArg (_ * ·) (w2_x1 m ρ c n _)
theorem w3_b : W3 m ρ c (Proc.devRef .tc main_v9) = W2 m ρ c (Proc.devRef .tc main_v9) := W3_of_ne m ρ c main_v9 (by decide)
theorem w3_a : W3 m ρ c (Proc.devRef .tc main_v5) = W2 m ρ c (Proc.devRef .tc main_v5) := W3_of_ne m ρ c main_v5 (by decide)

/-! ## After the second host operations: scaled by the hyperedge factor -/

theorem w4_x3 (e : Fin 8000) (f : Fin 64) : vec S8000x64 (W4 m ρ c (Proc.devRef .tc main_v15)) (ix2 e f) = Cert.Spec.x3 (Hm m c) (Xm m c) e f := by
  rw [show W4 m ρ c = StableHlo.after hostOps2 (W3 m ρ c) from rfl, host2_x3, w3_x2, w3_b, w2_b]; rfl
theorem w4_a : W4 m ρ c (Proc.devRef .tc main_v5) = W2 m ρ c (Proc.devRef .tc main_v5) :=
  (StableHlo.after_of_writes_sub hostOps2 _ hostOps2_writes (by decide)).trans (w3_a m ρ c)

/-! ## After region 2: the product -/

theorem w5_x4 : W5 m ρ c (Proc.devRef .tc main_v16) = vec S20000x64 (fun i => Cert.Spec.x4 (Hm m c) (Xm m c) ⟨(i 0).val, (i 0).isLt⟩ ⟨(i 1).val, (i 1).isLt⟩) := by
  refine ((W5_arr m ρ c 2).trans (x4_arr (E4 m ρ) c)).trans ?_
  funext i
  unfold Cert.Spec.x4
  refine Finset.sum_congr rfl fun e _ => ?_
  rw [show E4 m ρ c main_arg0 = Hm m c from w4_H m ρ c]
  exact congrArg (_ * ·) (w4_x3 m ρ c e _)
theorem w5_a : W5 m ρ c (Proc.devRef .tc main_v5) = W2 m ρ c (Proc.devRef .tc main_v5) :=
  (W5_of_ne m ρ c main_v5 (by decide)).trans (w4_a m ρ c)

/-! ## After the last host operations: the result -/

theorem w6_out : W6 m ρ c (Proc.devRef .tc main_v18) = Cert.Spec.G (Hm m c) (Xm m c) := by
  funext i
  refine (host3_out (W5 m ρ c) i).trans ?_
  rw [w5_x4, w5_a, w2_a]; rfl

end Cert.KernelIdeal.Val

end
-- ==== Proof.RefSide.lean ====
/-
  The reference program computes the common value.

  Each stage of the reference is read at an index and identified with the matching function of the
  specification: the stage after the first division is the node factor `a`, the stage after the second is the
  hyperedge factor `b`, the first product is `x1`, the first contraction (against the transposed incidence
  array) is `x2`, its scaling is `x3`, the second contraction is `x4`, and the last product is `out`.
  No algebraic law is needed: the two sides are the same expression once every broadcast and the transpose
  are read through their index maps.
-/
import proofs.«132042_j80255758893061_1_alg».proof.Proof.Gen.ReferenceIdeal.Read
import proofs.«132042_j80255758893061_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (H : (⟨S20000x8000, .f32⟩ : BufTy).Contents (Elt Ideal))
  (X : (⟨S20000x64, .f32⟩ : BufTy).Contents (Elt Ideal))

/-! ## The index maps of the sums, the spreads and the transpose, at coordinates -/

/-- Row `n`, summed over the columns. -/
theorem idx_rowsum (n : Fin 20000) (k : Fin 8000) : idx_main_v0 (ix1 n) k = ix2 n k :=
  funext fun a => Fin.ext (by match a with | ⟨0, _⟩ => rfl | ⟨1, _⟩ => rfl)

/-- Column `e`, summed over the rows. -/
theorem idx_colsum (e : Fin 8000) (k : Fin 20000) : idx_main_v1 (ix1 e) k = ix2 k e :=
  funext fun a => Fin.ext (by match a with | ⟨0, _⟩ => rfl | ⟨1, _⟩ => rfl)

/-- The node factor spread over the features reads node `n`. -/
theorem idx_node_spread (n : Fin 20000) (f : Fin 64) : idx_main_v11 (idx_main_v12 (ix2 n f)) = ix1 n :=
  funext fun a => Fin.ext (by match a with | ⟨0, _⟩ => rfl)

/-- The same spread, as the last product uses it. -/
theorem idx_node_spread' (n : Fin 20000) (f : Fin 64) : idx_main_v20 (idx_main_v21 (ix2 n f)) = ix1 n :=
  funext fun a => Fin.ext (by match a with | ⟨0, _⟩ => rfl)

/-- The hyperedge factor spread over the features reads hyperedge `e`. -/
theorem idx_edge_spread (e : Fin 8000) (f : Fin 64) : idx_main_v16 (idx_main_v17 (ix2 e f)) = ix1 e :=
  funext fun a => Fin.ext (by match a with | ⟨0, _⟩ => rfl)

/-- The transposed incidence array at `(e, n)` is the incidence array at `(n, e)`. -/
theorem idx_transposed (e : Fin 8000) (f : Fin 64) (k : Fin 20000) :
    idx_main_v14 (lidx_main_v15 (ix2 e f) k) = ix2 k e :=
  funext fun a => Fin.ext (by match a with | ⟨0, _⟩ => rfl | ⟨1, _⟩ => rfl)

/-- The first contraction's right operand at `(n, f)`. -/
theorem ridx_first (e : Fin 8000) (f : Fin 64) (k : Fin 20000) : ridx_main_v15 (ix2 e f) k = ix2 k f :=
  funext fun a => Fin.ext (by match a with | ⟨0, _⟩ => rfl | ⟨1, _⟩ => rfl)

/-- The second contraction's left operand at `(n, e)`. -/
theorem lidx_second (n : Fin 20000) (f : Fin 64) (k : Fin 8000) : lidx_main_v19 (ix2 n f) k = ix2 n k :=
  funext fun a => Fin.ext (by match a with | ⟨0, _⟩ => rfl | ⟨1, _⟩ => rfl)

/-- The second contraction's right operand at `(e, f)`. -/
theorem ridx_second (n : Fin 20000) (f : Fin 64) (k : Fin 8000) : ridx_main_v19 (ix2 n f) k = ix2 k f :=
  funext fun a => Fin.ext (by match a with | ⟨0, _⟩ => rfl | ⟨1, _⟩ => rfl)

/-! ## The stages -/

/-- The stage after the first division is the node factor. -/
theorem node_factor (n : Fin 20000) : val_main_v6 (F := Ideal) H (ix1 n) = Cert.Spec.a H n := by
  rw [val_main_v6_apply, val_main_v5_apply, val_main_cst_2_apply, val_main_v4_apply, val_main_v3_apply,
    val_main_v0_apply, val_main_cst_apply, val_main_v2_apply, val_main_cst_1_apply]
  simp only [Ideal.hostDivf_def, Ideal.hostUnary_sqrt_def, Ideal.addf_def, Ideal.ofBits_def, idx_rowsum]
  rfl

/-- The stage after the second division is the hyperedge factor. -/
theorem edge_factor (e : Fin 8000) : val_main_v10 (F := Ideal) H (ix1 e) = Cert.Spec.b H e := by
  rw [val_main_v10_apply, val_main_v9_apply, val_main_cst_4_apply, val_main_v8_apply,
    val_main_v1_apply, val_main_cst_0_apply, val_main_v7_apply, val_main_cst_3_apply]
  simp only [Ideal.hostDivf_def, Ideal.addf_def, Ideal.ofBits_def, idx_colsum]
  rfl

/-- The first product is the scaled features. -/
theorem scaled_features (n : Fin 20000) (f : Fin 64) :
    val_main_v13 (F := Ideal) H X (ix2 n f) = Cert.Spec.x1 H X n f := by
  rw [val_main_v13_apply, val_main_v12_apply, val_main_v11_apply, idx_node_spread, node_factor]
  rfl

/-- The first contraction is `Hᵀ · x1`. -/
theorem first_contraction (e : Fin 8000) (f : Fin 64) :
    val_main_v15 (F := Ideal) H X (ix2 e f) = Cert.Spec.x2 H X e f := by
  rw [val_main_v15_apply]
  unfold Cert.Spec.x2
  refine Finset.sum_congr rfl fun k _ => ?_
  rw [val_main_v14_apply, idx_transposed, ridx_first, scaled_features]

/-- Its scaling by the hyperedge factor. -/
theorem scaled_edges (e : Fin 8000) (f : Fin 64) :
    val_main_v18 (F := Ideal) H X (ix2 e f) = Cert.Spec.x3 H X e f := by
  rw [val_main_v18_apply, val_main_v17_apply, val_main_v16_apply, idx_edge_spread, edge_factor,
    first_contraction]
  rfl

/-- The second contraction is `H · x3`. -/
theorem second_contraction (n : Fin 20000) (f : Fin 64) :
    val_main_v19 (F := Ideal) H X (ix2 n f) = Cert.Spec.x4 H X n f := by
  rw [val_main_v19_apply]
  unfold Cert.Spec.x4
  refine Finset.sum_congr rfl fun k _ => ?_
  rw [lidx_second, ridx_second, scaled_edges]

/-- The last product is the result. -/
theorem result_at (n : Fin 20000) (f : Fin 64) :
    val_main_v22 (F := Ideal) H X (ix2 n f) = Cert.Spec.out H X n f := by
  rw [val_main_v22_apply, val_main_v21_apply, val_main_v20_apply, idx_node_spread', node_factor,
    second_contraction]
  rfl

/-! ## The reference's result is the common value -/

/-- The last stage of the reference, as an array, is the common value. -/
theorem ref_eq_G : val_main_v22 (F := Ideal) H X = Cert.Spec.G H X := by
  funext i
  obtain ⟨n, f, rfl⟩ : ∃ (n : Fin 20000) (f : Fin 64), i = ix2 n f := ⟨i 0, i 1, eq_ix2 i⟩
  exact result_at H X n f

open Cert.ReferenceIdeal.Gen Idealize.ShloMosaic.TcCoe Idealize.SL.Sem Idealize.ShloMosaic.StableHlo in
/-- The composed term that the reference's run leaves in its result buffer, with the two argument arrays
    `H` and `X`, is the common value. -/
theorem run_term_eq_G :
    mulf (Host.dotGeneral (F := Ideal) (φ₁ := .f32) (φ₂ := .f32) dot_S20000x8000_S8000x64_S20000x64_1_0_0_1_n_n none (H) (mulf (Host.dotGeneral (F := Ideal) (φ₁ := .f32) (φ₂ := .f32) dot_S8000x20000_S20000x64_S8000x64_1_0_0_1_n_n none (transpose S8000x20000 [1, 0] (H) transposes_S20000x8000_S8000x20000_1_0) (mulf (X) (broadcastInDim S20000x64 ![0, 1] bcast_S20000x1_S20000x64_0_1 (broadcastInDim S20000x1 ![0] bcast_S20000_S20000x1_0 (Host.divf (F := Ideal) (broadcastInDim S20000 ![] bcast_S_S20000 (constant (F := Ideal) S_ .f32 0x3F800000#32)) (Host.sqrt (F := Ideal) (addf (Host.reduceAdd (F := Ideal) (H) (constant (F := Ideal) S_ .f32 0x00000000#32) reducesTo_S20000x8000_S20000_d1 h_S_) (broadcastInDim S20000 ![] bcast_S_S20000 (constant (F := Ideal) S_ .f32 0x2EDBE6FF#32))))))))) (broadcastInDim S8000x64 ![0, 1] bcast_S8000x1_S8000x64_0_1 (broadcastInDim S8000x1 ![0] bcast_S8000_S8000x1_0 (Host.divf (F := Ideal) (broadcastInDim S8000 ![] bcast_S_S8000 (constant (F := Ideal) S_ .f32 0x3F800000#32)) (addf (Host.reduceAdd (F := Ideal) (H) (constant (F := Ideal) S_ .f32 0x00000000#32) reducesTo_S20000x8000_S8000_d0 h_S_) (broadcastInDim S8000 ![] bcast_S_S8000 (constant (F := Ideal) S_ .f32 0x2EDBE6FF#32)))))))) (broadcastInDim S20000x64 ![0, 1] bcast_S20000x1_S20000x64_0_1 (broadcastInDim S20000x1 ![0] bcast_S20000_S20000x1_0 (Host.divf (F := Ideal) (broadcastInDim S20000 ![] bcast_S_S20000 (constant (F := Ideal) S_ .f32 0x3F800000#32)) (Host.sqrt (F := Ideal) (addf (Host.reduceAdd (F := Ideal) (H) (constant (F := Ideal) S_ .f32 0x00000000#32) reducesTo_S20000x8000_S20000_d1 h_S_) (broadcastInDim S20000 ![] bcast_S_S20000 (constant (F := Ideal) S_ .f32 0x2EDBE6FF#32)))))))
      = Cert.Spec.G H X :=
  (val_main_v22_eq (F := Ideal) H X).trans (ref_eq_G H X)

end Cert.ReferenceIdeal.RefValue

end
-- ==== Proof.lean ====
/-
  The proof of the certificate's claim for the hypergraph message-passing kernel.

  Both programs compute, from the incidence array H (20000 nodes by 8000 hyperedges) and the features X (20000 by 64),
  out = D_v^(-1/2) H D_e^(-1) Hᵀ D_v^(-1/2) X, with D_v the row sums of H plus 1e-10 and D_e its column sums plus 1e-10.
  The kernel does it in three grid-tiled passes over H, 50 row blocks of 400 rows each: the first stores each block's
  row sums and accumulates the column sums over the blocks, the second accumulates Hᵀ·(X scaled) over the blocks, the
  third multiplies each row block by the whole scaled product; the scalings are host operations between the passes.
  The reference is one host program. Over the extended reals a change of float format is the identity and a sum may be
  regrouped freely (addition is commutative and associative there, infinities included), so the blocked sums are the
  whole sums and both results are the specification `Cert.Spec.G`; no finiteness of the inputs is used.

  The three frames: each kernel program runs as its six items in order, every region's body proved once per case of its
  branch on the grid point (first point: store; later points: add to what the point before left), the argument arrays
  untouched by any item; the reference's frame is its run with the result dropped. The idealization rewrote no operation.
-/
import proofs.«132042_j80255758893061_1_alg».proof.Defs
import proofs.«132042_j80255758893061_1_alg».proof.Proof.Gen.Kernel
import proofs.«132042_j80255758893061_1_alg».proof.Proof.Gen.KernelIdeal
import proofs.«132042_j80255758893061_1_alg».proof.Proof.Gen.ReferenceIdeal
import proofs.«132042_j80255758893061_1_alg».proof.Proof.Gen.Pre_finite_inputs
import proofs.«132042_j80255758893061_1_alg».proof.Proof.Gen.ReferenceIdeal.Run
import proofs.«132042_j80255758893061_1_alg».proof.Proof.K.Run
import proofs.«132042_j80255758893061_1_alg».proof.Proof.KI.Run
import proofs.«132042_j80255758893061_1_alg».proof.Proof.KI.Final
import proofs.«132042_j80255758893061_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Fr.frame m ρ
/-- So does the idealized kernel. -/
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run ends with its result array at the specification of its two argument arrays. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c _ (Cert.KernelIdeal.Fr.mem_uc Cert.KernelIdeal.main_v18 (by decide))).trans (Cert.KernelIdeal.Val.w6_out m ρ c),
     (h c _ (Cert.KernelIdeal.Fr.mem_uc Cert.KernelIdeal.main_arg0 (by decide))).trans (Cert.KernelIdeal.Fr.W6_main_arg0 m ρ c),
     (h c _ (Cert.KernelIdeal.Fr.mem_uc Cert.KernelIdeal.main_arg1 (by decide))).trans (Cert.KernelIdeal.Fr.W6_main_arg1 m ρ c)⟩)
    (Cert.KernelIdeal.Fr.run_all m ρ)

/-- From memories agreeing on the arguments both idealized programs end at the specification of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    kernel_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.run_term_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
